-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v45) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S16384x1024 : Shape := ⟨2, ![16384, 1024]⟩
abbrev S1024x3072 : Shape := ⟨2, ![1024, 3072]⟩
abbrev S3072 : Shape := ⟨1, ![3072]⟩
abbrev S_ : Shape := ⟨0, ![]⟩

class Facts : Prop where
  bcast_S_S16384x1024 : S_.BroadcastsInDim S16384x1024 (![] : Fin 0 → Fin S16384x1024.rank)
  reducesTo_S16384x1024_S_d0_1 : S16384x1024.ReducesTo [0, 1] S_
  h_S_ : 0 < S_.numel
  bcast_S_S1024x3072 : S_.BroadcastsInDim S1024x3072 (![] : Fin 0 → Fin S1024x3072.rank)
  reducesTo_S1024x3072_S_d0_1 : S1024x3072.ReducesTo [0, 1] S_
  bcast_S_S3072 : S_.BroadcastsInDim S3072 (![] : Fin 0 → Fin S3072.rank)
  reducesTo_S3072_S_d0 : S3072.ReducesTo [0] S_

variable [Facts]

def fn_part2 {F : FTy → Type} [FloatOps F] (main_arg7 : FVec F S3072 .f32) (main_arg8 : FVec F S3072 .f32) (main_v33 : IVec S_ 1) : IVec S_ 1 :=
  let main_v34 : FVec F S3072 .f32 := Host.absf main_arg7
  let main_cst_12 : FVec F S_ .f32 := constant S_ .f32 0x7F800000#32
  let main_v35 : FVec F S3072 .f32 := broadcastInDim S3072 ![] bcast_S_S3072 main_cst_12
  let main_v36 : IVec S3072 1 := cmpf .olt main_v34 main_v35
  let main_c_13 : IVec S_ 1 := constantI S_ 1 1#1
  let main_v37 : IVec S_ 1 := (fun x v => Host.reduce IntOp.andi x v reducesTo_S3072_S_d0 h_S_) main_v36 main_c_13
  let main_v38 : IVec S_ 1 := andi main_v33 main_v37
  let main_v39 : FVec F S3072 .f32 := Host.absf main_arg8
  let main_cst_14 : FVec F S_ .f32 := constant S_ .f32 0x7F800000#32
  let main_v40 : FVec F S3072 .f32 := broadcastInDim S3072 ![] bcast_S_S3072 main_cst_14
  let main_v41 : IVec S3072 1 := cmpf .olt main_v39 main_v40
  let main_c_15 : IVec S_ 1 := constantI S_ 1 1#1
  let main_v42 : IVec S_ 1 := (fun x v => Host.reduce IntOp.andi x v reducesTo_S3072_S_d0 h_S_) main_v41 main_c_15
  let main_v43 : IVec S_ 1 := andi main_v38 main_v42
  main_v43

def fn_part1 {F : FTy → Type} [FloatOps F] (main_arg4 : FVec F S1024x3072 .f32) (main_arg5 : FVec F S1024x3072 .f32) (main_arg6 : FVec F S3072 .f32) (main_arg7 : FVec F S3072 .f32) (main_arg8 : FVec F S3072 .f32) (main_v13 : IVec S_ 1) (main_v16 : IVec S1024x3072 1) : IVec S_ 1 :=
  let main_c_5 : IVec S_ 1 := constantI S_ 1 1#1
  let main_v17 : IVec S_ 1 := (fun x v => Host.reduce IntOp.andi x v reducesTo_S1024x3072_S_d0_1 h_S_) main_v16 main_c_5
  let main_v18 : IVec S_ 1 := andi main_v13 main_v17
  let main_v19 : FVec F S1024x3072 .f32 := Host.absf main_arg4
  let main_cst_6 : FVec F S_ .f32 := constant S_ .f32 0x7F800000#32
  let main_v20 : FVec F S1024x3072 .f32 := broadcastInDim S1024x3072 ![] bcast_S_S1024x3072 main_cst_6
  let main_v21 : IVec S1024x3072 1 := cmpf .olt main_v19 main_v20
  let main_c_7 : IVec S_ 1 := constantI S_ 1 1#1
  let main_v22 : IVec S_ 1 := (fun x v => Host.reduce IntOp.andi x v reducesTo_S1024x3072_S_d0_1 h_S_) main_v21 main_c_7
  let main_v23 : IVec S_ 1 := andi main_v18 main_v22
  let main_v24 : FVec F S1024x3072 .f32 := Host.absf main_arg5
  let main_cst_8 : FVec F S_ .f32 := constant S_ .f32 0x7F800000#32
  let main_v25 : FVec F S1024x3072 .f32 := broadcastInDim S1024x3072 ![] bcast_S_S1024x3072 main_cst_8
  let main_v26 : IVec S1024x3072 1 := cmpf .olt main_v24 main_v25
  let main_c_9 : IVec S_ 1 := constantI S_ 1 1#1
  let main_v27 : IVec S_ 1 := (fun x v => Host.reduce IntOp.andi x v reducesTo_S1024x3072_S_d0_1 h_S_) main_v26 main_c_9
  let main_v28 : IVec S_ 1 := andi main_v23 main_v27
  let main_v29 : FVec F S3072 .f32 := Host.absf main_arg6
  let main_cst_10 : FVec F S_ .f32 := constant S_ .f32 0x7F800000#32
  let main_v30 : FVec F S3072 .f32 := broadcastInDim S3072 ![] bcast_S_S3072 main_cst_10
  let main_v31 : IVec S3072 1 := cmpf .olt main_v29 main_v30
  let main_c_11 : IVec S_ 1 := constantI S_ 1 1#1
  let main_v32 : IVec S_ 1 := (fun x v => Host.reduce IntOp.andi x v reducesTo_S3072_S_d0 h_S_) main_v31 main_c_11
  let main_v33 : IVec S_ 1 := andi main_v28 main_v32
  fn_part2 (F := F) main_arg7 main_arg8 main_v33

def fn {F : FTy → Type} [FloatOps F] (main_arg0 : FVec F S16384x1024 .f32) (main_arg1 : FVec F S16384x1024 .f32) (main_arg2 : FVec F S16384x1024 .f32) (main_arg3 : FVec F S1024x3072 .f32) (main_arg4 : FVec F S1024x3072 .f32) (main_arg5 : FVec F S1024x3072 .f32) (main_arg6 : FVec F S3072 .f32) (main_arg7 : FVec F S3072 .f32) (main_arg8 : FVec F S3072 .f32) : IVec S_ 1 :=
  let main_v0 : FVec F S16384x1024 .f32 := Host.absf main_arg0
  let main_cst : FVec F S_ .f32 := constant S_ .f32 0x7F800000#32
  let main_v1 : FVec F S16384x1024 .f32 := broadcastInDim S16384x1024 ![] bcast_S_S16384x1024 main_cst
  let main_v2 : IVec S16384x1024 1 := cmpf .olt main_v0 main_v1
  let main_c : IVec S_ 1 := constantI S_ 1 1#1
  let main_v3 : IVec S_ 1 := (fun x v => Host.reduce IntOp.andi x v reducesTo_S16384x1024_S_d0_1 h_S_) main_v2 main_c
  let main_v4 : FVec F S16384x1024 .f32 := Host.absf main_arg1
  let main_cst_0 : FVec F S_ .f32 := constant S_ .f32 0x7F800000#32
  let main_v5 : FVec F S16384x1024 .f32 := broadcastInDim S16384x1024 ![] bcast_S_S16384x1024 main_cst_0
  let main_v6 : IVec S16384x1024 1 := cmpf .olt main_v4 main_v5
  let main_c_1 : IVec S_ 1 := constantI S_ 1 1#1
  let main_v7 : IVec S_ 1 := (fun x v => Host.reduce IntOp.andi x v reducesTo_S16384x1024_S_d0_1 h_S_) main_v6 main_c_1
  let main_v8 : IVec S_ 1 := andi main_v3 main_v7
  let main_v9 : FVec F S16384x1024 .f32 := Host.absf main_arg2
  let main_cst_2 : FVec F S_ .f32 := constant S_ .f32 0x7F800000#32
  let main_v10 : FVec F S16384x1024 .f32 := broadcastInDim S16384x1024 ![] bcast_S_S16384x1024 main_cst_2
  let main_v11 : IVec S16384x1024 1 := cmpf .olt main_v9 main_v10
  let main_c_3 : IVec S_ 1 := constantI S_ 1 1#1
  let main_v12 : IVec S_ 1 := (fun x v => Host.reduce IntOp.andi x v reducesTo_S16384x1024_S_d0_1 h_S_) main_v11 main_c_3
  let main_v13 : IVec S_ 1 := andi main_v8 main_v12
  let main_v14 : FVec F S1024x3072 .f32 := Host.absf main_arg3
  let main_cst_4 : FVec F S_ .f32 := constant S_ .f32 0x7F800000#32
  let main_v15 : FVec F S1024x3072 .f32 := broadcastInDim S1024x3072 ![] bcast_S_S1024x3072 main_cst_4
  let main_v16 : IVec S1024x3072 1 := cmpf .olt main_v14 main_v15
  fn_part1 (F := F) main_arg4 main_arg5 main_arg6 main_arg7 main_arg8 main_v13 main_v16
-- ==== Kernel.lean ====
abbrev S16384x1024 : Shape := ⟨2, ![16384, 1024]⟩
abbrev S1024x3072 : Shape := ⟨2, ![1024, 3072]⟩
abbrev S3072 : Shape := ⟨1, ![3072]⟩
abbrev S2048x3072 : Shape := ⟨2, ![2048, 3072]⟩
abbrev S1x3072 : Shape := ⟨2, ![1, 3072]⟩
abbrev S256x1024 : Shape := ⟨2, ![256, 1024]⟩
abbrev S256x2048 : Shape := ⟨2, ![256, 2048]⟩
abbrev S256x3072 : Shape := ⟨2, ![256, 3072]⟩

abbrev nBuf : Space → Nat
  | .hbm => 16
  | .vmem => 12
  | .smem => 0
  | _ => 0

abbrev bufTy : (tb : Table) → Fin (tcTables nBuf tb) → BufTy
  | .hbm, ⟨0, _⟩ => ⟨S16384x1024, .f32⟩
  | .hbm, ⟨1, _⟩ => ⟨S16384x1024, .f32⟩
  | .hbm, ⟨2, _⟩ => ⟨S16384x1024, .f32⟩
  | .hbm, ⟨3, _⟩ => ⟨S1024x3072, .f32⟩
  | .hbm, ⟨4, _⟩ => ⟨S1024x3072, .f32⟩
  | .hbm, ⟨5, _⟩ => ⟨S1024x3072, .f32⟩
  | .hbm, ⟨6, _⟩ => ⟨S3072, .f32⟩
  | .hbm, ⟨7, _⟩ => ⟨S3072, .f32⟩
  | .hbm, ⟨8, _⟩ => ⟨S3072, .f32⟩
  | .hbm, ⟨9, _⟩ => ⟨S2048x3072, .f32⟩
  | .hbm, ⟨10, _⟩ => ⟨S2048x3072, .bf16⟩
  | .hbm, ⟨11, _⟩ => ⟨S1024x3072, .bf16⟩
  | .hbm, ⟨12, _⟩ => ⟨S3072, .f32⟩
  | .hbm, ⟨13, _⟩ => ⟨S1x3072, .f32⟩
  | .hbm, ⟨14, _⟩ => ⟨S1x3072, .f32⟩
  | .hbm, ⟨15, _⟩ => ⟨S16384x1024, .f32⟩
  | .local _ .vmem, ⟨0, _⟩ => ⟨S256x1024, .f32⟩
  | .local _ .vmem, ⟨1, _⟩ => ⟨S256x1024, .f32⟩
  | .local _ .vmem, ⟨2, _⟩ => ⟨S256x1024, .f32⟩
  | .local _ .vmem, ⟨3, _⟩ => ⟨S256x1024, .f32⟩
  | .local _ .vmem, ⟨4, _⟩ => ⟨S256x1024, .f32⟩
  | .local _ .vmem, ⟨5, _⟩ => ⟨S256x1024, .f32⟩
  | .local _ .vmem, ⟨6, _⟩ => ⟨S2048x3072, .bf16⟩
  | .local _ .vmem, ⟨7, _⟩ => ⟨S1024x3072, .bf16⟩
  | .local _ .vmem, ⟨8, _⟩ => ⟨S1x3072, .f32⟩
  | .local _ .vmem, ⟨9, _⟩ => ⟨S1x3072, .f32⟩
  | .local _ .vmem, ⟨10, _⟩ => ⟨S256x1024, .f32⟩
  | .local _ .vmem, ⟨11, _⟩ => ⟨S256x1024, .f32⟩
  | _, _ => ⟨S16384x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_call0_v0 : Ref sig .tc := ⟨.hbm, 9, rfl⟩
abbrev main_call0_v1 : Ref sig .tc := ⟨.hbm, 10, rfl⟩
abbrev main_call0_v2 : Ref sig .tc := ⟨.hbm, 11, rfl⟩
abbrev main_call0_v3 : Ref sig .tc := ⟨.hbm, 12, rfl⟩
abbrev main_call0_v4 : Ref sig .tc := ⟨.hbm, 13, rfl⟩
abbrev main_call0_v5 : Ref sig .tc := ⟨.hbm, 14, rfl⟩
abbrev main_v0 : Ref sig .tc := ⟨.hbm, 15, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg7_0 : Ref sig .tc := ⟨.vmem, 10, rfl⟩
abbrev cc0_stg7_1 : Ref sig .tc := ⟨.vmem, 11, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem6_0 : DmaSem sig := 9
abbrev cc0_sem7_0 : DmaSem sig := 10
abbrev cc0_sem7_1 : DmaSem sig := 11

abbrev nD : Nat := 1
abbrev τ : Topo := Topo.v7x

variable {F : FTy → Type} [FloatOps F]

abbrev grid0 : Pipeline.Grid := ⟨1, ![64], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S2048x3072 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1024x3072 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x3072 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x3072 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 2 → Memref sig .tc .vmem S256x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

class Facts₀ : Prop where
  concatenates_S1024x3072_S1024x3072_S2048x3072_d0 : Shape.Concatenates [S1024x3072, S1024x3072] S2048x3072 0
  bitsLt_bf16_f32 : FTy.bits .bf16 < FTy.bits .f32
  shapeCasts_S3072_S1x3072 : S3072.ShapeCasts S1x3072
  inb_S256x1024_S256x1024_0_0 : ∀ a, (![0, 0] : Fin 2 → Nat) a + S256x1024.size a ≤ S256x1024.size a
  h_S256x1024 : 0 < S256x1024.numel
  concatenates_S256x1024_S256x1024_S256x2048_d1 : Shape.Concatenates [S256x1024, S256x1024] S256x2048 1
  inb_S2048x3072_S2048x3072_0_0 : ∀ a, (![0, 0] : Fin 2 → Nat) a + S2048x3072.size a ≤ S2048x3072.size a
  h_S2048x3072 : 0 < S2048x3072.numel
  shapeCasts_S2048x3072_S2048x3072 : S2048x3072.ShapeCasts S2048x3072
  inb_S1024x3072_S1024x3072_0_0 : ∀ a, (![0, 0] : Fin 2 → Nat) a + S1024x3072.size a ≤ S1024x3072.size a
  h_S1024x3072 : 0 < S1024x3072.numel
  shapeCasts_S1024x3072_S1024x3072 : S1024x3072.ShapeCasts S1024x3072
  inb_S1x3072_S1x3072_0_0 : ∀ a, (![0, 0] : Fin 2 → Nat) a + S1x3072.size a ≤ S1x3072.size a
  h_S1x3072 : 0 < S1x3072.numel
  shapeCasts_S1x3072_S1x3072 : S1x3072.ShapeCasts S1x3072
  broadcasts_S1x3072_S256x3072 : S1x3072.Broadcasts S256x3072
  slices_S256x3072_o0_0_S256x1024 : S256x3072.Slices ![0, 0] S256x1024
  slices_S256x3072_o0_1024_S256x1024 : S256x3072.Slices ![0, 1024] S256x1024
  slices_S256x3072_o0_2048_S256x1024 : S256x3072.Slices ![0, 2048] S256x1024
  dot_S256x2048_S2048x3072_S256x3072_1_0_0_1_n_n_wf : DotDims.WF S256x2048 S2048x3072 S256x3072 [1] [0] [0] [1] [] []
  dot_S256x1024_S1024x3072_S256x3072_1_0_0_1_n_n_wf : DotDims.WF S256x1024 S1024x3072 S256x3072 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S256x1024.size a ≤ S16384x1024.size a
  hwx0_0 : ∀ i : grid0.Coords, EltTy.bits .f32 = 32 ∨ (Rect.block (s := S16384x1024) S256x1024.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S256x1024.size a ≤ S16384x1024.size a
  hwx0_1 : ∀ i : grid0.Coords, EltTy.bits .f32 = 32 ∨ (Rect.block (s := S16384x1024) S256x1024.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S256x1024.size a ≤ S16384x1024.size a
  hwx0_2 : ∀ i : grid0.Coords, EltTy.bits .f32 = 32 ∨ (Rect.block (s := S16384x1024) S256x1024.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S2048x3072.size a ≤ S2048x3072.size a
  hwx0_3 : ∀ i : grid0.Coords, EltTy.bits .bf16 = 32 ∨ (Rect.block (s := S2048x3072) S2048x3072.size (cc0_transform_3 i) (hinb0_3 i)).WholeWords (EltTy.packing .bf16)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1024x3072.size a ≤ S1024x3072.size a
  hwx0_4 : ∀ i : grid0.Coords, EltTy.bits .bf16 = 32 ∨ (Rect.block (s := S1024x3072) S1024x3072.size (cc0_transform_4 i) (hinb0_4 i)).WholeWords (EltTy.packing .bf16)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S1x3072.size a ≤ S1x3072.size a
  hwx0_5 : ∀ i : grid0.Coords, EltTy.bits .f32 = 32 ∨ (Rect.block (s := S1x3072) S1x3072.size (cc0_transform_5 i) (hinb0_5 i)).WholeWords (EltTy.packing .f32)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S1x3072.size a ≤ S1x3072.size a
  hwx0_6 : ∀ i : grid0.Coords, EltTy.bits .f32 = 32 ∨ (Rect.block (s := S1x3072) S1x3072.size (cc0_transform_6 i) (hinb0_6 i)).WholeWords (EltTy.packing .f32)
  hstage0_7 : ∀ j, (stage0_7 j).IsWhole
  nbuf0_7 : grid0.bufCount reads0_7 false = 2
  hreads0_7 : ∀ i i' : grid0.Coords, (∀ a, reads0_7 a = true → i a = i' a) → cc0_transform_7 i = cc0_transform_7 i'
  hinb0_7 : ∀ (i : grid0.Coords) a, (cc0_transform_7 i a + 1) * S256x1024.size a ≤ S16384x1024.size a
  hwx0_7 : ∀ i : grid0.Coords, EltTy.bits .f32 = 32 ∨ (Rect.block (s := S16384x1024) S256x1024.size (cc0_transform_7 i) (hinb0_7 i)).WholeWords (EltTy.packing .f32)

variable [Facts₀]

def dot_S256x2048_S2048x3072_S256x3072_1_0_0_1_n_n : DotDims S256x2048 S2048x3072 S256x3072 where
  lhsContracting := [1]
  rhsContracting := [0]
  lhsNonContracting := [0]
  rhsNonContracting := [1]
  lhsBatch := []
  rhsBatch := []
  wf := dot_S256x2048_S2048x3072_S256x3072_1_0_0_1_n_n_wf
def dot_S256x1024_S1024x3072_S256x3072_1_0_0_1_n_n : DotDims S256x1024 S1024x3072 S256x3072 where
  lhsContracting := [1]
  rhsContracting := [0]
  lhsNonContracting := [0]
  rhsNonContracting := [1]
  lhsBatch := []
  rhsBatch := []
  wf := dot_S256x1024_S1024x3072_S256x3072_1_0_0_1_n_n_wf

abbrev win0_0 : Pipeline.Window sig grid0 :=
  Pipeline.Window.ofSpec (Memref.whole main_arg0) S256x1024.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S256x1024.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg2) S256x1024.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_call0_v1) S2048x3072.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_call0_v2) S1024x3072.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_call0_v4) S1x3072.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_call0_v5) S1x3072.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_v0) S256x1024.size cc0_transform_7 reads0_7 true false 2 stage0_7 sem0_7
    hrank0 hreads0_7 hinb0_7 nbuf0_7 (Memref.isWhole_whole _) hwx0_7 hstage0_7

abbrev win0 : Fin 8 → Pipeline.Window sig grid0 := fun | 0 => win0_0 | 1 => win0_1 | 2 => win0_2 | 3 => win0_3 | 4 => win0_4 | 5 => win0_5 | 6 => win0_6 | 7 => win0_7 | ⟨_ + 8, h⟩ => absurd h (Nat.not_lt.2 (Nat.le_add_left _ _))
abbrev spec0 : Fin 8 → Pipeline.WinSpec sig grid0.rank := fun w => (win0 w).toWinSpec

class Facts : Prop extends Facts₀ where

variable [Facts]
-- ==== ReferenceIdeal.lean ====
abbrev S16384x1024 : Shape := ⟨2, ![16384, 1024]⟩
abbrev S1024x3072 : Shape := ⟨2, ![1024, 3072]⟩
abbrev S3072 : Shape := ⟨1, ![3072]⟩
abbrev S16384x3072 : Shape := ⟨2, ![16384, 3072]⟩
abbrev S1x3072 : Shape := ⟨2, ![1, 3072]⟩
abbrev S_ : Shape := ⟨0, ![]⟩

abbrev nBuf : Space → Nat
  | .hbm => 60
  | .vmem => 0
  | .smem => 0
  | _ => 0

abbrev bufTy : (tb : Table) → Fin (tcTables nBuf tb) → BufTy
  | .hbm, ⟨0, _⟩ => ⟨S16384x1024, .f32⟩
  | .hbm, ⟨1, _⟩ => ⟨S16384x1024, .f32⟩
  | .hbm, ⟨2, _⟩ => ⟨S16384x1024, .f32⟩
  | .hbm, ⟨3, _⟩ => ⟨S1024x3072, .f32⟩
  | .hbm, ⟨4, _⟩ => ⟨S1024x3072, .f32⟩
  | .hbm, ⟨5, _⟩ => ⟨S1024x3072, .f32⟩
  | .hbm, ⟨6, _⟩ => ⟨S3072, .f32⟩
  | .hbm, ⟨7, _⟩ => ⟨S3072, .f32⟩
  | .hbm, ⟨8, _⟩ => ⟨S3072, .f32⟩
  | .hbm, ⟨9, _⟩ => ⟨S16384x3072, .f32⟩
  | .hbm, ⟨10, _⟩ => ⟨S1x3072, .f32⟩
  | .hbm, ⟨11, _⟩ => ⟨S16384x3072, .f32⟩
  | .hbm, ⟨12, _⟩ => ⟨S16384x3072, .f32⟩
  | .hbm, ⟨13, _⟩ => ⟨S16384x3072, .f32⟩
  | .hbm, ⟨14, _⟩ => ⟨S1x3072, .f32⟩
  | .hbm, ⟨15, _⟩ => ⟨S16384x3072, .f32⟩
  | .hbm, ⟨16, _⟩ => ⟨S16384x3072, .f32⟩
  | .hbm, ⟨17, _⟩ => ⟨S16384x3072, .f32⟩
  | .hbm, ⟨18, _⟩ => ⟨S1x3072, .f32⟩
  | .hbm, ⟨19, _⟩ => ⟨S16384x3072, .f32⟩
  | .hbm, ⟨20, _⟩ => ⟨S16384x3072, .f32⟩
  | .hbm, ⟨21, _⟩ => ⟨S16384x1024, .f32⟩
  | .hbm, ⟨22, _⟩ => ⟨S16384x1024, .f32⟩
  | .hbm, ⟨23, _⟩ => ⟨S16384x1024, .f32⟩
  | .hbm, ⟨24, _⟩ => ⟨S16384x1024, .f32⟩
  | .hbm, ⟨25, _⟩ => ⟨S16384x1024, .f32⟩
  | .hbm, ⟨26, _⟩ => ⟨S16384x1024, .f32⟩
  | .hbm, ⟨27, _⟩ => ⟨S16384x1024, .f32⟩
  | .hbm, ⟨28, _⟩ => ⟨S16384x1024, .f32⟩
  | .hbm, ⟨29, _⟩ => ⟨S16384x1024, .f32⟩
  | .hbm, ⟨30, _⟩ => ⟨S16384x1024, .f32⟩
  | .hbm, ⟨31, _⟩ => ⟨S16384x1024, .f32⟩
  | .hbm, ⟨32, _⟩ => ⟨S16384x1024, .f32⟩
  | .hbm, ⟨33, _⟩ => ⟨S16384x1024, .f32⟩
  | .hbm, ⟨34, _⟩ => ⟨S_, .f32⟩
  | .hbm, ⟨35, _⟩ => ⟨S16384x1024, .f32⟩
  | .hbm, ⟨36, _⟩ => ⟨S16384x1024, .f32⟩
  | .hbm, ⟨37, _⟩ => ⟨S_, .f32⟩
  | .hbm, ⟨38, _⟩ => ⟨S16384x1024, .f32⟩
  | .hbm, ⟨39, _⟩ => ⟨S16384x1024, .f32⟩
  | .hbm, ⟨40, _⟩ => ⟨S16384x1024, .f32⟩
  | .hbm, ⟨41, _⟩ => ⟨S16384x1024, .f32⟩
  | .hbm, ⟨42, _⟩ => ⟨S16384x1024, .f32⟩
  | .hbm, ⟨43, _⟩ => ⟨S16384x1024, .f32⟩
  | .hbm, ⟨44, _⟩ => ⟨S_, .f32⟩
  | .hbm, ⟨45, _⟩ => ⟨S16384x1024, .f32⟩
  | .hbm, ⟨46, _⟩ => ⟨S16384x1024, .f32⟩
  | .hbm, ⟨47, _⟩ => ⟨S_, .f32⟩
  | .hbm, ⟨48, _⟩ => ⟨S16384x1024, .f32⟩
  | .hbm, ⟨49, _⟩ => ⟨S16384x1024, .f32⟩
  | .hbm, ⟨50, _⟩ => ⟨S16384x1024, .f32⟩
  | .hbm, ⟨51, _⟩ => ⟨S16384x1024, .f32⟩
  | .hbm, ⟨52, _⟩ => ⟨S16384x1024, .f32⟩
  | .hbm, ⟨53, _⟩ => ⟨S16384x1024, .f32⟩
  | .hbm, ⟨54, _⟩ => ⟨S_, .f32⟩
  | .hbm, ⟨55, _⟩ => ⟨S16384x1024, .f32⟩
  | .hbm, ⟨56, _⟩ => ⟨S16384x1024, .f32⟩
  | .hbm, ⟨57, _⟩ => ⟨S16384x1024, .f32⟩
  | .hbm, ⟨58, _⟩ => ⟨S16384x1024, .f32⟩
  | .hbm, ⟨59, _⟩ => ⟨S16384x1024, .f32⟩
  | _, _ => ⟨S16384x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩
abbrev main_v23 : Ref sig .tc := ⟨.hbm, 32, rfl⟩
abbrev main_v24 : Ref sig .tc := ⟨.hbm, 33, rfl⟩
abbrev main_cst : Ref sig .tc := ⟨.hbm, 34, rfl⟩
abbrev main_v25 : Ref sig .tc := ⟨.hbm, 35, rfl⟩
abbrev main_v26 : Ref sig .tc := ⟨.hbm, 36, rfl⟩
abbrev main_cst_0 : Ref sig .tc := ⟨.hbm, 37, rfl⟩
abbrev main_v27 : Ref sig .tc := ⟨.hbm, 38, rfl⟩
abbrev main_v28 : Ref sig .tc := ⟨.hbm, 39, rfl⟩
abbrev main_v29 : Ref sig .tc := ⟨.hbm, 40, rfl⟩
abbrev main_v30 : Ref sig .tc := ⟨.hbm, 41, rfl⟩
abbrev main_v31 : Ref sig .tc := ⟨.hbm, 42, rfl⟩
abbrev main_v32 : Ref sig .tc := ⟨.hbm, 43, rfl⟩
abbrev main_cst_1 : Ref sig .tc := ⟨.hbm, 44, rfl⟩
abbrev main_v33 : Ref sig .tc := ⟨.hbm, 45, rfl⟩
abbrev main_v34 : Ref sig .tc := ⟨.hbm, 46, rfl⟩
abbrev main_cst_2 : Ref sig .tc := ⟨.hbm, 47, rfl⟩
abbrev main_v35 : Ref sig .tc := ⟨.hbm, 48, rfl⟩
abbrev main_v36 : Ref sig .tc := ⟨.hbm, 49, rfl⟩
abbrev main_v37 : Ref sig .tc := ⟨.hbm, 50, rfl⟩
abbrev main_v38 : Ref sig .tc := ⟨.hbm, 51, rfl⟩
abbrev main_v39 : Ref sig .tc := ⟨.hbm, 52, rfl⟩
abbrev main_v40 : Ref sig .tc := ⟨.hbm, 53, rfl⟩
abbrev main_cst_3 : Ref sig .tc := ⟨.hbm, 54, rfl⟩
abbrev main_v41 : Ref sig .tc := ⟨.hbm, 55, rfl⟩
abbrev main_v42 : Ref sig .tc := ⟨.hbm, 56, rfl⟩
abbrev main_v43 : Ref sig .tc := ⟨.hbm, 57, rfl⟩
abbrev main_v44 : Ref sig .tc := ⟨.hbm, 58, rfl⟩
abbrev main_v45 : Ref sig .tc := ⟨.hbm, 59, rfl⟩

abbrev nD : Nat := 1
abbrev τ : Topo := Topo.v7x

variable {F : FTy → Type} [FloatOps F]

class Facts₀ : Prop where
  bcast_S3072_S1x3072_1 : S3072.BroadcastsInDim S1x3072 (![1] : Fin 1 → Fin S1x3072.rank)
  bcast_S1x3072_S16384x3072_0_1 : S1x3072.BroadcastsInDim S16384x3072 (![0, 1] : Fin 2 → Fin S16384x3072.rank)
  slices_S16384x3072_S16384x1024_0_0 : S16384x3072.Slices ![0, 0] S16384x1024
  slices_S16384x3072_S16384x1024_0_1024 : S16384x3072.Slices ![0, 1024] S16384x1024
  slices_S16384x3072_S16384x1024_0_2048 : S16384x3072.Slices ![0, 2048] S16384x1024
  bcast_S_S16384x1024 : S_.BroadcastsInDim S16384x1024 (![] : Fin 0 → Fin S16384x1024.rank)
  dot_S16384x1024_S1024x3072_S16384x3072_1_0_0_1_n_n_wf : DotDims.WF S16384x1024 S1024x3072 S16384x3072 [1] [0] [0] [1] [] []

variable [Facts₀]

def dot_S16384x1024_S1024x3072_S16384x3072_1_0_0_1_n_n : DotDims S16384x1024 S1024x3072 S16384x3072 where
  lhsContracting := [1]
  rhsContracting := [0]
  lhsNonContracting := [0]
  rhsNonContracting := [1]
  lhsBatch := []
  rhsBatch := []
  wf := dot_S16384x1024_S1024x3072_S16384x3072_1_0_0_1_n_n_wf

class Facts : Prop extends Facts₀ where

variable [Facts]
-- ==== Proof.LibLogisticTanh.lean ====
/-
  A general lemma, independent of any program: the logistic function two ways, on the extended reals
  (`half_tanh_eq_logistic`), with the two literals it meets (`ofBits_half`, `ofBits_one`).

  One program may compute a gate as `½ · (1 + tanh (½ · a))` where another computes it as
  `1 / (1 + e^(-a))`. On a real `a`, with `u = e^(a/2)`, the first is
  `½ · (1 + (u - u⁻¹)/(u + u⁻¹)) = u / (u + u⁻¹)` and the second is `1 / (1 + u⁻¹·u⁻¹)`: both are
  `u² / (u² + 1)`. At `+∞` both are `1` (`tanh ⊤ = 1`, `e^(-⊤) = 0`), at `-∞` both are `0`
  (`tanh ⊥ = -1`, `1 / (1 + ⊤) = 0`). So the two agree at every extended real, and nothing about the
  finiteness of the gate's argument is needed.
-/
import Idealize.ShloMosaic.PureOps.Ideal

noncomputable section

namespace Cert.LibLogisticTanh

open Idealize.ShloMosaic

/-- The pattern of `0.5` denotes the real `1/2`. -/
theorem ofBits_half : Ideal.ofBits .f32 0x3F000000#32 = ((1 / 2 : ℝ) : EReal) := by
  simp [Ideal.ofBits, Ideal.ieee, -EReal.coe_mul]; norm_num

/-- The pattern of `1.0` denotes `1`. -/
theorem ofBits_one : Ideal.ofBits .f32 0x3F800000#32 = 1 := by
  simp [Ideal.ofBits, Ideal.ieee, -EReal.coe_mul]; norm_num

/-- On the reals: `½ · (1 + tanh (½ · r)) = (1 + e^(-r))⁻¹`. -/
theorem real_half_tanh (r : ℝ) : (1 / 2 : ℝ) * (1 + Real.tanh (1 / 2 * r)) = (1 + Real.exp (-r))⁻¹ := by
  have hu : 0 < Real.exp (1 / 2 * r) := Real.exp_pos _
  have hr : Real.exp (-r) = (Real.exp (1 / 2 * r))⁻¹ * (Real.exp (1 / 2 * r))⁻¹ := by
    rw [← Real.exp_neg, ← Real.exp_add]; congr 1; ring
  rw [Real.tanh_eq, hr, Real.exp_neg]
  field_simp
  ring

/-- On the extended reals: `½ · (1 + tanh (½ · a))` is the logistic function `1 / (1 + e^(-a))`, the infinities
    included. -/
theorem half_tanh_eq_logistic (a : EReal) :
    ((1 / 2 : ℝ) : EReal) * (1 + Ideal.tanh (((1 / 2 : ℝ) : EReal) * a)) = Ideal.div 1 (1 + Ideal.exp (-a)) := by
  show _ = Ideal.logistic a
  induction a using EReal.rec with
  | bot =>
    rw [EReal.coe_mul_bot_of_pos (by norm_num), Ideal.tanh_bot, Ideal.logistic_bot]
    have : (1 : EReal) + -1 = 0 := by
      rw [← EReal.coe_one, ← EReal.coe_neg, ← EReal.coe_add]; norm_num
    rw [this, mul_zero]
  | top =>
    rw [EReal.coe_mul_top_of_pos (by norm_num), Ideal.tanh_top, Ideal.logistic_top]
    rw [← EReal.coe_one, ← EReal.coe_add, ← EReal.coe_mul]; norm_num
  | coe r =>
    rw [← EReal.coe_mul, Ideal.tanh_coe, Ideal.logistic_coe, ← EReal.coe_one, ← EReal.coe_add, ← EReal.coe_mul,
      real_half_tanh]

end Cert.LibLogisticTanh

end
-- ==== Proof.Spec.lean ====
/-
  The GRU cell on one batch row, as plain functions of `Fin`-indexed rows, in the two arrangements the two programs
  compute, and the law that joins them.

  A row of the batch is `Fin 1024 → EReal`; a weight matrix is `Fin 1024 → Fin 3072 → EReal`, its 3072 columns the
  three gates `z | r | n` side by side (`colZ`, `colR`, `colN`); a bias is `Fin 3072 → EReal`.

  * `refRow`: three products, one per source, each with its own bias; the gates' arguments are the three
    pre-activations added source by source; each gate is `1 / (1 + e^(-a))`.
  * `kerRow`: the input row and the shared-state row laid end to end (`cat`) against the two weight matrices stacked
    (`catW`), with the two biases added beforehand; the hidden row's product kept apart, because the reset gate
    multiplies only it; each gate is `½ · (1 + tanh (½ · a))`.

  They are equal on the extended reals: a sum over `Fin 2048` splits into its two halves, addition on the extended
  reals is commutative and associative (no cancellation or distributivity is used, so no finiteness), and the two
  spellings of the logistic function agree everywhere (`half_tanh_eq_logistic`).
-/
import proofs.«410021_j20478404067888_3_alg».proof.Proof.LibLogisticTanh
import Mathlib.Algebra.BigOperators.Fin
import Mathlib.Tactic.Abel

noncomputable section

namespace Cert.Gru

open Idealize.ShloMosaic Cert.LibLogisticTanh

/-- One batch row of an activation. -/
abbrev Row := Fin 1024 → EReal
/-- A gate weight matrix: 1024 rows, the three gates' 1024 columns each side by side. -/
abbrev Wt := Fin 1024 → Fin 3072 → EReal
/-- A gate bias. -/
abbrev Bias := Fin 3072 → EReal

/-- Column `q` of the update gate, the reset gate and the candidate. -/
def colZ (q : Fin 1024) : Fin 3072 := ⟨q.val, by have := q.isLt; omega⟩
def colR (q : Fin 1024) : Fin 3072 := ⟨1024 + q.val, by have := q.isLt; omega⟩
def colN (q : Fin 1024) : Fin 3072 := ⟨2048 + q.val, by have := q.isLt; omega⟩

/-- A row against column `j` of a weight matrix, plus the bias there. -/
def pre (a : Row) (W : Wt) (b : Bias) (j : Fin 3072) : EReal := (∑ k : Fin 1024, a k * W k j) + b j

/-- The reference's arrangement of the cell at column `q` of one batch row. -/
def refRow (x h s : Row) (Wx Wh Ws : Wt) (bx bh bs : Bias) (q : Fin 1024) : EReal :=
  (1 - Ideal.div 1 (1 + Ideal.exp (-(pre x Wx bx (colZ q) + pre h Wh bh (colZ q) + pre s Ws bs (colZ q)))))
      * Ideal.tanh (pre x Wx bx (colN q)
          + Ideal.div 1 (1 + Ideal.exp (-(pre x Wx bx (colR q) + pre h Wh bh (colR q) + pre s Ws bs (colR q))))
            * pre h Wh bh (colN q)
          + pre s Ws bs (colN q))
    + Ideal.div 1 (1 + Ideal.exp (-(pre x Wx bx (colZ q) + pre h Wh bh (colZ q) + pre s Ws bs (colZ q)))) * h q

/-- Two rows laid end to end. -/
def cat (a b : Row) : Fin 2048 → EReal := fun k =>
  if hk : k.val < 1024 then a ⟨k.val, hk⟩ else b ⟨k.val - 1024, by have := k.isLt; omega⟩

/-- Two weight matrices stacked, the first on top. -/
def catW (A B : Wt) : Fin 2048 → Fin 3072 → EReal := fun k j =>
  if hk : k.val < 1024 then A ⟨k.val, hk⟩ j else B ⟨k.val - 1024, by have := k.isLt; omega⟩ j

/-- The fused product: the long row against column `j` of the stacked weights, plus the summed bias. -/
def preXS (xs : Fin 2048 → EReal) (W : Fin 2048 → Fin 3072 → EReal) (b : Bias) (j : Fin 3072) : EReal :=
  (∑ k : Fin 2048, xs k * W k j) + b j

/-- The kernel's arrangement of the cell at column `q` of one batch row. -/
def kerRow (xs : Fin 2048 → EReal) (h : Row) (Wxs : Fin 2048 → Fin 3072 → EReal) (Wh : Wt) (bxs bh : Bias)
    (q : Fin 1024) : EReal :=
  (1 - ((1 / 2 : ℝ) : EReal) * (1 + Ideal.tanh (((1 / 2 : ℝ) : EReal) * (preXS xs Wxs bxs (colZ q) + pre h Wh bh (colZ q)))))
      * Ideal.tanh (preXS xs Wxs bxs (colN q)
          + ((1 / 2 : ℝ) : EReal) * (1 + Ideal.tanh (((1 / 2 : ℝ) : EReal) * (preXS xs Wxs bxs (colR q) + pre h Wh bh (colR q))))
            * pre h Wh bh (colN q))
    + ((1 / 2 : ℝ) : EReal) * (1 + Ideal.tanh (((1 / 2 : ℝ) : EReal) * (preXS xs Wxs bxs (colZ q) + pre h Wh bh (colZ q)))) * h q

/-- The long sum is the sum of its halves. -/
theorem sum_cat (x s : Row) (Wx Ws : Wt) (j : Fin 3072) :
    ∑ k : Fin 2048, cat x s k * catW Wx Ws k j = (∑ k : Fin 1024, x k * Wx k j) + ∑ k : Fin 1024, s k * Ws k j := by
  have hsplit := Fin.sum_univ_add (M := EReal) (a := 1024) (b := 1024) fun k => cat x s k * catW Wx Ws k j
  have h1 : ∑ k : Fin 1024, cat x s (Fin.castAdd 1024 k) * catW Wx Ws (Fin.castAdd 1024 k) j = ∑ k : Fin 1024, x k * Wx k j := by
    refine Finset.sum_congr rfl fun k _ => ?_
    have hk : (Fin.castAdd 1024 k : Fin (1024 + 1024)).val < 1024 := k.isLt
    unfold cat catW
    rw [dif_pos hk, dif_pos hk]
    rfl
  have h2 : ∑ k : Fin 1024, cat x s (Fin.natAdd 1024 k) * catW Wx Ws (Fin.natAdd 1024 k) j = ∑ k : Fin 1024, s k * Ws k j := by
    refine Finset.sum_congr rfl fun k _ => ?_
    have hk : ¬ (Fin.natAdd 1024 k : Fin (1024 + 1024)).val < 1024 := by
      rw [Fin.coe_natAdd]; omega
    have e : (⟨(Fin.natAdd 1024 k : Fin (1024 + 1024)).val - 1024, by rw [Fin.coe_natAdd]; have := k.isLt; omega⟩ : Fin 1024) = k :=
      Fin.ext (by show (Fin.natAdd 1024 k : Fin (1024 + 1024)).val - 1024 = k.val; rw [Fin.coe_natAdd]; omega)
    unfold cat catW
    rw [dif_neg hk, dif_neg hk, e]
  exact hsplit.trans (by rw [h1, h2])

/-- The fused pre-activation is the two sources' pre-activations added. -/
theorem preXS_cat (x s : Row) (Wx Ws : Wt) (bx bs : Bias) (j : Fin 3072) :
    preXS (cat x s) (catW Wx Ws) (fun j => bx j + bs j) j = pre x Wx bx j + pre s Ws bs j := by
  unfold preXS pre
  rw [sum_cat]
  beta_reduce
  abel

/-- THE LAW: the kernel's arrangement over the laid-out operands is the reference's. -/
theorem kerRow_eq_refRow (x h s : Row) (Wx Wh Ws : Wt) (bx bh bs : Bias) (q : Fin 1024) :
    kerRow (cat x s) h (catW Wx Ws) Wh (fun j => bx j + bs j) bh q = refRow x h s Wx Wh Ws bx bh bs q := by
  unfold kerRow refRow
  rw [half_tanh_eq_logistic, half_tanh_eq_logistic, preXS_cat, preXS_cat, preXS_cat]
  have ez : pre x Wx bx (colZ q) + pre s Ws bs (colZ q) + pre h Wh bh (colZ q)
      = pre x Wx bx (colZ q) + pre h Wh bh (colZ q) + pre s Ws bs (colZ q) := by abel
  have er : pre x Wx bx (colR q) + pre s Ws bs (colR q) + pre h Wh bh (colR q)
      = pre x Wx bx (colR q) + pre h Wh bh (colR q) + pre s Ws bs (colR q) := by abel
  rw [ez, er]
  congr 3
  abel

end Cert.Gru

end
-- ==== Proof.Arrays.lean ====
/-
  The cell over whole arrays: the [16384, 1024] result whose entry at (r, q) is the reference's arrangement
  (`refRow`) of row `r` of the three activations against the three weight matrices and biases, at column `q`.
  Both programs' results are shown equal to this one array.
-/
import proofs.«410021_j20478404067888_3_alg».proof.Proof.Spec
import Idealize.ShloMosaic.Lib.ValueIdx

noncomputable section

namespace Cert.Gru

open Idealize.ShloMosaic Idealize.ShloMosaic.ValueIdx

/-- Row `r` of a [16384, 1024] activation. -/
def rowOf (X : (⟨2, ![16384, 1024]⟩ : Shape).Idx → EReal) (r : Fin 16384) : Row := fun k => X (ix2 r k)
/-- A [1024, 3072] weight array by coordinates. -/
def wtOf (W : (⟨2, ![1024, 3072]⟩ : Shape).Idx → EReal) : Wt := fun k j => W (ix2 k j)
/-- A [3072] bias array by coordinate. -/
def biasOf (b : (⟨1, ![3072]⟩ : Shape).Idx → EReal) : Bias := fun j => b (ix1 j)

/-- The new hidden state, entry by entry. -/
def gruArr (X H S : (⟨2, ![16384, 1024]⟩ : Shape).Idx → EReal) (Wx Wh Ws : (⟨2, ![1024, 3072]⟩ : Shape).Idx → EReal)
    (bx bh bs : (⟨1, ![3072]⟩ : Shape).Idx → EReal) : (⟨2, ![16384, 1024]⟩ : Shape).Idx → EReal := fun i =>
  refRow (rowOf X (i 0)) (rowOf H (i 0)) (rowOf S (i 0)) (wtOf Wx) (wtOf Wh) (wtOf Ws) (biasOf bx) (biasOf bh) (biasOf bs) (i 1)

/-- Two indices of a rank-2 shape with equal coordinates are equal. -/
theorem idx2_ext {n0 n1 : Nat} (f g : (⟨2, ![n0, n1]⟩ : Shape).Idx) (h0 : (f 0).val = (g 0).val) (h1 : (f 1).val = (g 1).val) :
    f = g := funext fun a => Fin.ext (by match a with | ⟨0, _⟩ => exact h0 | ⟨1, _⟩ => exact h1)

/-- Two indices of a rank-1 shape with equal coordinates are equal. -/
theorem idx1_ext {n : Nat} (f g : (⟨1, ![n]⟩ : Shape).Idx) (h0 : (f 0).val = (g 0).val) : f = g :=
  funext fun a => Fin.ext (by match a with | ⟨0, _⟩ => exact h0)

end Cert.Gru

end
-- ==== Proof.KernelPoint.lean ====
/-
  What one grid point's body leaves in its output block, entry by entry.

  The body's single store covers the [256, 1024] block, so the block after the body is the store's payload over the
  whole input blocks. Read at (p, q), with the format changes the identity on the extended reals:
  * the fused product `[x | s] · [Wx ; Ws]` into a zero accumulator is the sum over the 2048 positions of the long row
    against the stacked weights' column; the concatenation along the lanes reads the input block left of position 1024
    and the shared-state block right of it; the [1, 3072] bias broadcast down the rows reads its one row;
  * the hidden block's product likewise, over 1024 positions;
  * the three gate slices read columns `q`, `1024 + q`, `2048 + q`;
  * the rest is pointwise.
  Together: `kerRow` of row `p` of the blocks.
-/
import proofs.«410021_j20478404067888_3_alg».proof.Proof.Gen.KernelIdeal.Frame
import proofs.«410021_j20478404067888_3_alg».proof.Proof.Arrays
import Idealize.ShloMosaic.Lib.Pipeline.Value
import Idealize.ShloMosaic.Lib.ValueIdx
import Idealize.ShloMosaic.PureOps.Ideal.Laws

noncomputable section

namespace Cert.Gru.Ker

open Cert.KernelIdeal Cert.KernelIdeal.Gen Cert.Gru Cert.LibLogisticTanh
open Idealize.ShloMosaic Idealize.ShloMosaic.TcCoe Idealize.ShloMosaic.ValueIdx

theorem hz : (![0, 0] : Fin 2 → Nat) = fun _ => 0 := funext fun a => by fin_cases a <;> rfl

/-- The body's one store covers the block: what it leaves is the store's payload over the whole input blocks. -/
theorem out_eq_payload {F : FTy → Type} [FloatOps F] (x0 x1 x2 : Vec F S256x1024 .f32) (x3 : Vec F S2048x3072 .bf16)
    (x4 : Vec F S1024x3072 .bf16) (x5 x6 : Vec F S1x3072 .f32) :
    out0_7 x0 x1 x2 x3 x4 x5 x6
      = k0_pay1 x1 (k0_pay4 x0 x2 x3 x5) (k0_pay5 x1 x4 x6) (k0_pay6 x1 x0 x2 x3 x4 x5 x6) (k0_pay7 x1 x0 x2 x3 x4 x5 x6)
          (Scalar.ofBits .f32 0x3F800000#32) := by
  unfold out0_7
  rw [View.canon_unit_zero hz]
  simp only [View.ld_unit_zero (S := S256x1024) hz, View.ld_unit_zero (S := S2048x3072) hz,
    View.ld_unit_zero (S := S1024x3072) hz, View.ld_unit_zero (S := S1x3072) hz]

/-! ## The two matrix products at an index -/

theorem lhs_xs_0 (i : S256x3072.Idx) (q : dot_S256x2048_S2048x3072_S256x3072_1_0_0_1_n_n.contr.Idx) :
    (dot_S256x2048_S2048x3072_S256x3072_1_0_0_1_n_n.lhsIdx i q 0).val = (i 0).val := by
  unfold DotDims.lhsIdx
  rw [dif_neg (show ¬(0 : Fin S256x2048.rank) ∈ dot_S256x2048_S2048x3072_S256x3072_1_0_0_1_n_n.lhsBatch by decide), dif_pos (show (0 : Fin S256x2048.rank) ∈ dot_S256x2048_S2048x3072_S256x3072_1_0_0_1_n_n.lhsNonContracting by decide)]
  rfl
theorem lhs_xs_1 (i : S256x3072.Idx) (q : dot_S256x2048_S2048x3072_S256x3072_1_0_0_1_n_n.contr.Idx) :
    (dot_S256x2048_S2048x3072_S256x3072_1_0_0_1_n_n.lhsIdx i q 1).val = (q ⟨0, by decide⟩).val :=
  dot_S256x2048_S2048x3072_S256x3072_1_0_0_1_n_n.lhsIdx_val_of_single rfl i q
theorem rhs_xs_0 (i : S256x3072.Idx) (q : dot_S256x2048_S2048x3072_S256x3072_1_0_0_1_n_n.contr.Idx) :
    (dot_S256x2048_S2048x3072_S256x3072_1_0_0_1_n_n.rhsIdx i q 0).val = (q ⟨0, by decide⟩).val :=
  dot_S256x2048_S2048x3072_S256x3072_1_0_0_1_n_n.rhsIdx_val_of_single rfl i q
theorem rhs_xs_1 (i : S256x3072.Idx) (q : dot_S256x2048_S2048x3072_S256x3072_1_0_0_1_n_n.contr.Idx) :
    (dot_S256x2048_S2048x3072_S256x3072_1_0_0_1_n_n.rhsIdx i q 1).val = (i 1).val := by
  unfold DotDims.rhsIdx
  rw [dif_neg (show ¬(1 : Fin S2048x3072.rank) ∈ dot_S256x2048_S2048x3072_S256x3072_1_0_0_1_n_n.rhsBatch by decide), dif_pos (show (1 : Fin S2048x3072.rank) ∈ dot_S256x2048_S2048x3072_S256x3072_1_0_0_1_n_n.rhsNonContracting by decide)]
  rfl

theorem lhs_h_0 (i : S256x3072.Idx) (q : dot_S256x1024_S1024x3072_S256x3072_1_0_0_1_n_n.contr.Idx) :
    (dot_S256x1024_S1024x3072_S256x3072_1_0_0_1_n_n.lhsIdx i q 0).val = (i 0).val := by
  unfold DotDims.lhsIdx
  rw [dif_neg (show ¬(0 : Fin S256x1024.rank) ∈ dot_S256x1024_S1024x3072_S256x3072_1_0_0_1_n_n.lhsBatch by decide), dif_pos (show (0 : Fin S256x1024.rank) ∈ dot_S256x1024_S1024x3072_S256x3072_1_0_0_1_n_n.lhsNonContracting by decide)]
  rfl
theorem lhs_h_1 (i : S256x3072.Idx) (q : dot_S256x1024_S1024x3072_S256x3072_1_0_0_1_n_n.contr.Idx) :
    (dot_S256x1024_S1024x3072_S256x3072_1_0_0_1_n_n.lhsIdx i q 1).val = (q ⟨0, by decide⟩).val :=
  dot_S256x1024_S1024x3072_S256x3072_1_0_0_1_n_n.lhsIdx_val_of_single rfl i q
theorem rhs_h_0 (i : S256x3072.Idx) (q : dot_S256x1024_S1024x3072_S256x3072_1_0_0_1_n_n.contr.Idx) :
    (dot_S256x1024_S1024x3072_S256x3072_1_0_0_1_n_n.rhsIdx i q 0).val = (q ⟨0, by decide⟩).val :=
  dot_S256x1024_S1024x3072_S256x3072_1_0_0_1_n_n.rhsIdx_val_of_single rfl i q
theorem rhs_h_1 (i : S256x3072.Idx) (q : dot_S256x1024_S1024x3072_S256x3072_1_0_0_1_n_n.contr.Idx) :
    (dot_S256x1024_S1024x3072_S256x3072_1_0_0_1_n_n.rhsIdx i q 1).val = (i 1).val := by
  unfold DotDims.rhsIdx
  rw [dif_neg (show ¬(1 : Fin S1024x3072.rank) ∈ dot_S256x1024_S1024x3072_S256x3072_1_0_0_1_n_n.rhsBatch by decide), dif_pos (show (1 : Fin S1024x3072.rank) ∈ dot_S256x1024_S1024x3072_S256x3072_1_0_0_1_n_n.rhsNonContracting by decide)]
  rfl

/-- The fused product into a zero accumulator, at (r, j): the sum over the 2048 contracted positions. -/
theorem matmul_xs_apply (l : FVec Ideal S256x2048 .bf16) (r : FVec Ideal S2048x3072 .bf16) (i : S256x3072.Idx) :
    matmul (F := Ideal) dot_S256x2048_S2048x3072_S256x3072_1_0_0_1_n_n none l r (constant (F := Ideal) S256x3072 .f32 0x00000000#32) i
      = ∑ k : Fin 2048, l (ix2 (i 0) k) * r (ix2 k (i 1)) := by
  simp only [matmul]
  rw [Ideal.matmul_constant_zero_apply, ← Equiv.sum_comp (ValueIdx.contrEquiv1 dot_S256x2048_S2048x3072_S256x3072_1_0_0_1_n_n 2048 rfl rfl).symm]
  refine Finset.sum_congr rfl fun k _ => ?_
  have hk := ValueIdx.contrEquiv1_symm_val dot_S256x2048_S2048x3072_S256x3072_1_0_0_1_n_n 2048 rfl rfl k
  have el : dot_S256x2048_S2048x3072_S256x3072_1_0_0_1_n_n.lhsIdx i ((ValueIdx.contrEquiv1 dot_S256x2048_S2048x3072_S256x3072_1_0_0_1_n_n 2048 rfl rfl).symm k) = ix2 (i 0) k := funext fun a => Fin.ext (by
    match a with
    | ⟨0, _⟩ => exact lhs_xs_0 _ _
    | ⟨1, _⟩ => exact (lhs_xs_1 _ _).trans hk)
  have er : dot_S256x2048_S2048x3072_S256x3072_1_0_0_1_n_n.rhsIdx i ((ValueIdx.contrEquiv1 dot_S256x2048_S2048x3072_S256x3072_1_0_0_1_n_n 2048 rfl rfl).symm k) = ix2 k (i 1) := funext fun a => Fin.ext (by
    match a with
    | ⟨0, _⟩ => exact (rhs_xs_0 _ _).trans hk
    | ⟨1, _⟩ => exact rhs_xs_1 _ _)
  rw [el, er]
  rfl

/-- The hidden block's product into a zero accumulator, at (r, j): the sum over the 1024 contracted positions. -/
theorem matmul_h_apply (l : FVec Ideal S256x1024 .bf16) (r : FVec Ideal S1024x3072 .bf16) (i : S256x3072.Idx) :
    matmul (F := Ideal) dot_S256x1024_S1024x3072_S256x3072_1_0_0_1_n_n none l r (constant (F := Ideal) S256x3072 .f32 0x00000000#32) i
      = ∑ k : Fin 1024, l (ix2 (i 0) k) * r (ix2 k (i 1)) := by
  simp only [matmul]
  rw [Ideal.matmul_constant_zero_apply, ← Equiv.sum_comp (ValueIdx.contrEquiv1 dot_S256x1024_S1024x3072_S256x3072_1_0_0_1_n_n 1024 rfl rfl).symm]
  refine Finset.sum_congr rfl fun k _ => ?_
  have hk := ValueIdx.contrEquiv1_symm_val dot_S256x1024_S1024x3072_S256x3072_1_0_0_1_n_n 1024 rfl rfl k
  have el : dot_S256x1024_S1024x3072_S256x3072_1_0_0_1_n_n.lhsIdx i ((ValueIdx.contrEquiv1 dot_S256x1024_S1024x3072_S256x3072_1_0_0_1_n_n 1024 rfl rfl).symm k) = ix2 (i 0) k := funext fun a => Fin.ext (by
    match a with
    | ⟨0, _⟩ => exact lhs_h_0 _ _
    | ⟨1, _⟩ => exact (lhs_h_1 _ _).trans hk)
  have er : dot_S256x1024_S1024x3072_S256x3072_1_0_0_1_n_n.rhsIdx i ((ValueIdx.contrEquiv1 dot_S256x1024_S1024x3072_S256x3072_1_0_0_1_n_n 1024 rfl rfl).symm k) = ix2 k (i 1) := funext fun a => Fin.ext (by
    match a with
    | ⟨0, _⟩ => exact (rhs_h_0 _ _).trans hk
    | ⟨1, _⟩ => exact rhs_h_1 _ _)
  rw [el, er]
  rfl

/-! ## Layout operations at an index -/

/-- The two [256, 1024] blocks laid side by side, at (p, k): the first left of position 1024, the second right of it. -/
theorem concat_apply (v1 v2 : Vec Ideal S256x1024 .f32) (p : Fin 256) (k : Fin 2048) :
    concatenate S256x2048 1 [⟨S256x1024, v1⟩, ⟨S256x1024, v2⟩] concatenates_S256x1024_S256x1024_S256x2048_d1 (ix2 p k)
      = cat (fun k => v1 (ix2 p k)) (fun k => v2 (ix2 p k)) k := by
  unfold cat
  by_cases hk : k.val < 1024
  · rw [dif_pos hk]
    exact concatenate_pair_apply_left (1 : Fin 2) v1 v2 _ (ix2 p k) rfl (ix2 p ⟨k.val, hk⟩)
      (fun b => by match b with | ⟨0, _⟩ => rfl | ⟨1, _⟩ => rfl)
  · rw [dif_neg hk]
    exact concatenate_pair_apply_right (1 : Fin 2) v1 v2 _ (ix2 p k) rfl rfl (ix2 p ⟨k.val - 1024, by have := k.isLt; omega⟩)
      (fun b hb => by match b with | ⟨0, _⟩ => rfl | ⟨1, _⟩ => exact absurd rfl hb)
      (by show (k.val - 1024) + 1024 = k.val; omega)

/-- A [1, 3072] row broadcast down 256 rows, at (p, j): the row at `j`. -/
theorem bias_apply (b : FVec Ideal S1x3072 .f32) (p : Fin 256) (j : Fin 3072) :
    broadcastTo S256x3072 b broadcasts_S1x3072_S256x3072 (ix2 p j) = b (ix2 0 j) :=
  broadcastTo_apply b _ (ix2 p j) (ix2 0 j) (fun a => by
    match a with
    | ⟨0, _⟩ => show (0 : Nat) = if (1 : Nat) = 1 then 0 else _; rw [if_pos rfl]
    | ⟨1, _⟩ => show j.val = if (3072 : Nat) = 1 then 0 else j.val; rw [if_neg (by decide)])

/-- The three gate slices of a [256, 3072] block, at (p, q). -/
theorem sliceZ (y : FVec Ideal S256x3072 .f32) (p : Fin 256) (q : Fin 1024) :
    extractStridedSlice S256x1024 ![0, 0] y slices_S256x3072_o0_0_S256x1024 (ix2 p q) = y (ix2 p (colZ q)) :=
  extractStridedSlice_apply ![0, 0] y _ (ix2 p q) (ix2 p (colZ q)) (fun a => by
    match a with
    | ⟨0, _⟩ => show p.val = 0 + p.val; omega
    | ⟨1, _⟩ => show q.val = 0 + q.val; omega)
theorem sliceR (y : FVec Ideal S256x3072 .f32) (p : Fin 256) (q : Fin 1024) :
    extractStridedSlice S256x1024 ![0, 1024] y slices_S256x3072_o0_1024_S256x1024 (ix2 p q) = y (ix2 p (colR q)) :=
  extractStridedSlice_apply ![0, 1024] y _ (ix2 p q) (ix2 p (colR q)) (fun a => by
    match a with
    | ⟨0, _⟩ => show p.val = 0 + p.val; omega
    | ⟨1, _⟩ => show 1024 + q.val = 1024 + q.val; rfl)
theorem sliceN (y : FVec Ideal S256x3072 .f32) (p : Fin 256) (q : Fin 1024) :
    extractStridedSlice S256x1024 ![0, 2048] y slices_S256x3072_o0_2048_S256x1024 (ix2 p q) = y (ix2 p (colN q)) :=
  extractStridedSlice_apply ![0, 2048] y _ (ix2 p q) (ix2 p (colN q)) (fun a => by
    match a with
    | ⟨0, _⟩ => show p.val = 0 + p.val; omega
    | ⟨1, _⟩ => show 2048 + q.val = 2048 + q.val; rfl)

theorem tanh_apply {s : Shape} {φ : FTy} (v : FVec Ideal s φ) (i : s.Idx) : tanh v i = Ideal.tanh (v i) := rfl

theorem scalar_ofBits (b : BitVec 32) : Scalar.ofBits (F := Ideal) .f32 b = Ideal.ofBits .f32 b := rfl

/-! ## The payloads at an index -/

/-- The fused pre-activation at (p, j). -/
theorem pay2_apply (v1 v2 : Vec Ideal S256x1024 .f32) (v6 : Vec Ideal S2048x3072 .bf16) (v11 : Vec Ideal S1x3072 .f32)
    (p : Fin 256) (j : Fin 3072) :
    k0_pay2 v1 v2 v6 v11 (ix2 p j)
      = preXS (cat (fun k => v1 (ix2 p k)) (fun k => v2 (ix2 p k))) (fun k j => v6 (ix2 k j)) (fun j => v11 (ix2 0 j)) j := by
  unfold k0_pay2
  rw [addf_apply, matmul_xs_apply, shapeCast_self, shapeCast_self, bias_apply]
  unfold preXS
  refine congrArg₂ (· + ·) (Finset.sum_congr rfl fun k _ => ?_) rfl
  rw [truncf_apply, concat_apply]

/-- The hidden pre-activation at (p, j). -/
theorem pay3_apply (v0 : Vec Ideal S256x1024 .f32) (v8 : Vec Ideal S1024x3072 .bf16) (v16 : Vec Ideal S1x3072 .f32)
    (p : Fin 256) (j : Fin 3072) :
    k0_pay3 v0 v8 v16 (ix2 p j) = pre (fun k => v0 (ix2 p k)) (fun k j => v8 (ix2 k j)) (fun j => v16 (ix2 0 j)) j := by
  unfold k0_pay3
  rw [addf_apply, matmul_h_apply, shapeCast_self, shapeCast_self, bias_apply]
  unfold pre
  refine congrArg₂ (· + ·) (Finset.sum_congr rfl fun k _ => ?_) rfl
  rw [truncf_apply]

/-- THE BLOCK AFTER THE BODY at (p, q): the kernel's arrangement of the cell on row `p` of the input blocks. -/
theorem out_apply (x0 x1 x2 : Vec Ideal S256x1024 .f32) (x3 : Vec Ideal S2048x3072 .bf16) (x4 : Vec Ideal S1024x3072 .bf16)
    (x5 x6 : Vec Ideal S1x3072 .f32) (p : Fin 256) (q : Fin 1024) :
    out0_7 x0 x1 x2 x3 x4 x5 x6 (ix2 p q)
      = kerRow (cat (fun k => x0 (ix2 p k)) (fun k => x2 (ix2 p k))) (fun k => x1 (ix2 p k)) (fun k j => x3 (ix2 k j))
          (fun k j => x4 (ix2 k j)) (fun j => x5 (ix2 0 j)) (fun j => x6 (ix2 0 j)) q := by
  rw [out_eq_payload]
  unfold k0_pay1 k0_pay4 k0_pay5 k0_pay6 k0_pay7
  simp only [addf_apply, mulf_apply, subf_apply, tanh_apply, broadcast_apply, sliceZ, sliceR, sliceN, pay2_apply, pay3_apply,
    scalar_ofBits, ofBits_half, ofBits_one]
  rfl

end Cert.Gru.Ker

end
-- ==== Proof.KernelValue.lean ====
/-
  From blocks to the array: the kernel's result array after the run is the cell over whole arrays (`gruArr`).

  Grid point `t` (of 64) sees rows `256 t … 256 t + 255` of the three activations and the whole of the four host-made
  operands: the two weight matrices stacked and the third alone (format changes, the identity here), the two biases
  added and the third alone, each reshaped to one row. So row `p` of point `t`'s blocks is row `256 t + p` of the
  arrays, the body's block is `kerRow` over the laid-out operands, hence `refRow` (the law), hence block `t` of
  `gruArr`. The 64 blocks tile the array: row `r` lies in block `r / 256`.
-/
import proofs.«410021_j20478404067888_3_alg».proof.Proof.Gen.KernelIdeal.Value
import proofs.«410021_j20478404067888_3_alg».proof.Proof.KernelPoint
import Idealize.ShloMosaic.Lib.StableHlo.Run

set_option maxRecDepth 16384

noncomputable section

namespace Cert.Gru.KerValue

open Cert.KernelIdeal Cert.KernelIdeal.Gen Cert.KernelIdeal.Value Cert.Gru Cert.Gru.Ker
open Idealize.ShloMosaic Idealize.ShloMosaic.TcCoe Idealize.ShloMosaic.ValueIdx Idealize.SL.Sem Idealize.ShloMosaic.StableHlo
open Idealize.ShloMosaic.Pipeline (Dat)

variable (m : (ℓ : Loc nD τ sig) → Buf (Elt Ideal) ℓ) (ρ : Dev nD → PrngReg)

/-! ## The host-made operands as the region finds them -/

/-- The stacked weights: the input's on top of the shared state's. -/
theorem V_wxs (c : Dev nD) :
    V m c main_call0_v1
      = truncf (F := Ideal) .bf16 (concatenate S2048x3072 0 [⟨S1024x3072, m ((c : Thread nD τ).loc main_arg3)⟩, ⟨S1024x3072, m ((c : Thread nD τ).loc main_arg5)⟩]
          concatenates_S1024x3072_S1024x3072_S2048x3072_d0) bitsLt_bf16_f32 := by
  dsimp only [V, hostOps0]; after_results; rfl

/-- The hidden state's weights. -/
theorem V_wh (c : Dev nD) :
    V m c main_call0_v2 = truncf (F := Ideal) .bf16 (m ((c : Thread nD τ).loc main_arg4)) bitsLt_bf16_f32 := by
  dsimp only [V, hostOps0]; after_results; rfl

/-- The input's and the shared state's biases added, as one row. -/
theorem V_bxs (c : Dev nD) :
    V m c main_call0_v4
      = shapeCast S1x3072 (addf (F := Ideal) (s := S3072) (φ := .f32) (m ((c : Thread nD τ).loc main_arg6)) (m ((c : Thread nD τ).loc main_arg8))) shapeCasts_S3072_S1x3072 := by
  dsimp only [V, hostOps0]; after_results; rfl

/-- The hidden state's bias, as one row. -/
theorem V_bh (c : Dev nD) :
    V m c main_call0_v5 = shapeCast S1x3072 (m ((c : Thread nD τ).loc main_arg7)) shapeCasts_S3072_S1x3072 := by
  dsimp only [V, hostOps0]; after_results; rfl

/-! ## The operands at an index -/

/-- The stacked weights at (k, j): the input's above row 1024, the shared state's below. -/
theorem wxs_apply (c : Dev nD) (k : Fin 2048) (j : Fin 3072) :
    (V m c main_call0_v1 : S2048x3072.Idx → EReal) (ix2 k j)
      = catW (wtOf (m ((c : Thread nD τ).loc main_arg3))) (wtOf (m ((c : Thread nD τ).loc main_arg5))) k j := by
  rw [V_wxs, truncf_apply]
  unfold catW wtOf
  by_cases hk : k.val < 1024
  · rw [dif_pos hk]
    exact concatenate_pair_apply_left (s₁ := S1024x3072) (s₂ := S1024x3072) (0 : Fin 2) (m ((c : Thread nD τ).loc main_arg3)) (m ((c : Thread nD τ).loc main_arg5))
      concatenates_S1024x3072_S1024x3072_S2048x3072_d0 (ix2 k j) rfl (ix2 (⟨k.val, hk⟩ : Fin 1024) j)
      (fun b => by match b with | ⟨0, _⟩ => rfl | ⟨1, _⟩ => rfl)
  · rw [dif_neg hk]
    exact concatenate_pair_apply_right (s₁ := S1024x3072) (s₂ := S1024x3072) (0 : Fin 2) (m ((c : Thread nD τ).loc main_arg3)) (m ((c : Thread nD τ).loc main_arg5))
      concatenates_S1024x3072_S1024x3072_S2048x3072_d0 (ix2 k j) rfl rfl (ix2 (⟨k.val - 1024, by have := k.isLt; omega⟩ : Fin 1024) j)
      (fun b hb => by match b with | ⟨0, _⟩ => exact absurd rfl hb | ⟨1, _⟩ => rfl)
      (by show (k.val - 1024) + 1024 = k.val; omega)

/-- The hidden state's weights at (k, j). -/
theorem wh_apply (c : Dev nD) (k : Fin 1024) (j : Fin 3072) :
    (V m c main_call0_v2 : S1024x3072.Idx → EReal) (ix2 k j) = wtOf (m ((c : Thread nD τ).loc main_arg4)) k j := by
  rw [V_wh, truncf_apply]
  rfl

/-- A [3072] vector reshaped to one row, at (0, j). -/
theorem row_apply (v : S3072.Idx → EReal) (j : Fin 3072) :
    shapeCast S1x3072 v shapeCasts_S3072_S1x3072 (ix2 0 j) = v (ix1 j) :=
  (shapeCast_addUnit_apply ![3072] v shapeCasts_S3072_S1x3072 (ix2 0 j)).trans
    (congrArg v (funext fun a => by match a with | ⟨0, _⟩ => rfl))

/-- The added biases at (0, j). -/
theorem bxs_apply (c : Dev nD) (j : Fin 3072) :
    (V m c main_call0_v4 : S1x3072.Idx → EReal) (ix2 0 j)
      = biasOf (m ((c : Thread nD τ).loc main_arg6)) j + biasOf (m ((c : Thread nD τ).loc main_arg8)) j := by
  rw [V_bxs, row_apply]
  rfl

/-- The hidden state's bias at (0, j). -/
theorem bh_apply (c : Dev nD) (j : Fin 3072) :
    (V m c main_call0_v5 : S1x3072.Idx → EReal) (ix2 0 j) = biasOf (m ((c : Thread nD τ).loc main_arg7)) j := by
  rw [V_bh, row_apply]
  rfl

/-! ## The windows' blocks -/

/-- The printed index maps over the 64 grid points: the three activations and the output move down the rows with the
    point; the four resident operands stay at block (0, 0). -/
theorem idx_facts : ∀ t : Fin cfg0.N,
    (win0_0.index t (0 : Fin 2) = t.val ∧ win0_0.index t (1 : Fin 2) = 0)
    ∧ (win0_1.index t (0 : Fin 2) = t.val ∧ win0_1.index t (1 : Fin 2) = 0)
    ∧ (win0_2.index t (0 : Fin 2) = t.val ∧ win0_2.index t (1 : Fin 2) = 0)
    ∧ (win0_3.index t (0 : Fin 2) = 0 ∧ win0_3.index t (1 : Fin 2) = 0)
    ∧ (win0_4.index t (0 : Fin 2) = 0 ∧ win0_4.index t (1 : Fin 2) = 0)
    ∧ (win0_5.index t (0 : Fin 2) = 0 ∧ win0_5.index t (1 : Fin 2) = 0)
    ∧ (win0_6.index t (0 : Fin 2) = 0 ∧ win0_6.index t (1 : Fin 2) = 0)
    ∧ (win0_7.index t (0 : Fin 2) = t.val ∧ win0_7.index t (1 : Fin 2) = 0) :=
  (by decide +kernel : ∀ t : Fin grid0.N, _)

/-- Row `p` of point `t`'s block of the input is row `256 t + p` of the input. -/
theorem iblk0_apply (c : Dev nD) (t : Fin cfg0.N) (p : Fin 256) (k : Fin 1024) (r : Fin 16384) (hr : r.val = 256 * t.val + p.val) :
    (iblk m c 0 t : Vec Ideal S256x1024 .f32) (ix2 p k) = rowOf (m ((c : Thread nD τ).loc main_arg0)) r k := by
  obtain ⟨⟨h0, h1⟩, -⟩ := idx_facts t
  unfold iblk rowOf
  rw [View.read_apply]
  show V m c main_arg0 _ = _
  refine (congrFun (V_main_arg0 m c) _).trans (congrArg _ (idx2_ext _ _ ?_ ?_))
  · show win0_0.index t (0 : Fin 2) * 256 + 1 * p.val = r.val; rw [h0, hr]; omega
  · show win0_0.index t (1 : Fin 2) * 1024 + 1 * k.val = k.val; rw [h1]; omega

/-- Row `p` of point `t`'s block of the hidden state is row `256 t + p` of the hidden state. -/
theorem iblk1_apply (c : Dev nD) (t : Fin cfg0.N) (p : Fin 256) (k : Fin 1024) (r : Fin 16384) (hr : r.val = 256 * t.val + p.val) :
    (iblk m c 1 t : Vec Ideal S256x1024 .f32) (ix2 p k) = rowOf (m ((c : Thread nD τ).loc main_arg1)) r k := by
  obtain ⟨-, ⟨h0, h1⟩, -⟩ := idx_facts t
  unfold iblk rowOf
  rw [View.read_apply]
  show V m c main_arg1 _ = _
  refine (congrFun (V_main_arg1 m c) _).trans (congrArg _ (idx2_ext _ _ ?_ ?_))
  · show win0_1.index t (0 : Fin 2) * 256 + 1 * p.val = r.val; rw [h0, hr]; omega
  · show win0_1.index t (1 : Fin 2) * 1024 + 1 * k.val = k.val; rw [h1]; omega

/-- Row `p` of point `t`'s block of the shared state is row `256 t + p` of the shared state. -/
theorem iblk2_apply (c : Dev nD) (t : Fin cfg0.N) (p : Fin 256) (k : Fin 1024) (r : Fin 16384) (hr : r.val = 256 * t.val + p.val) :
    (iblk m c 2 t : Vec Ideal S256x1024 .f32) (ix2 p k) = rowOf (m ((c : Thread nD τ).loc main_arg2)) r k := by
  obtain ⟨-, -, ⟨h0, h1⟩, -⟩ := idx_facts t
  unfold iblk rowOf
  rw [View.read_apply]
  show V m c main_arg2 _ = _
  refine (congrFun (V_main_arg2 m c) _).trans (congrArg _ (idx2_ext _ _ ?_ ?_))
  · show win0_2.index t (0 : Fin 2) * 256 + 1 * p.val = r.val; rw [h0, hr]; omega
  · show win0_2.index t (1 : Fin 2) * 1024 + 1 * k.val = k.val; rw [h1]; omega

/-- The stacked weights' one block is the whole array. -/
theorem iblk3_apply (c : Dev nD) (t : Fin cfg0.N) (k : Fin 2048) (j : Fin 3072) :
    (iblk m c 3 t : Vec Ideal S2048x3072 .bf16) (ix2 k j) = (V m c main_call0_v1 : S2048x3072.Idx → EReal) (ix2 k j) := by
  obtain ⟨-, -, -, ⟨h0, h1⟩, -⟩ := idx_facts t
  unfold iblk
  rw [View.read_apply]
  show V m c main_call0_v1 _ = _
  refine congrArg _ (idx2_ext _ _ ?_ ?_)
  · show win0_3.index t (0 : Fin 2) * 2048 + 1 * k.val = k.val; rw [h0]; omega
  · show win0_3.index t (1 : Fin 2) * 3072 + 1 * j.val = j.val; rw [h1]; omega

/-- The hidden state's weights' one block is the whole array. -/
theorem iblk4_apply (c : Dev nD) (t : Fin cfg0.N) (k : Fin 1024) (j : Fin 3072) :
    (iblk m c 4 t : Vec Ideal S1024x3072 .bf16) (ix2 k j) = (V m c main_call0_v2 : S1024x3072.Idx → EReal) (ix2 k j) := by
  obtain ⟨-, -, -, -, ⟨h0, h1⟩, -⟩ := idx_facts t
  unfold iblk
  rw [View.read_apply]
  show V m c main_call0_v2 _ = _
  refine congrArg _ (idx2_ext _ _ ?_ ?_)
  · show win0_4.index t (0 : Fin 2) * 1024 + 1 * k.val = k.val; rw [h0]; omega
  · show win0_4.index t (1 : Fin 2) * 3072 + 1 * j.val = j.val; rw [h1]; omega

/-- The added biases' one block is the whole row. -/
theorem iblk5_apply (c : Dev nD) (t : Fin cfg0.N) (j : Fin 3072) :
    (iblk m c 5 t : Vec Ideal S1x3072 .f32) (ix2 0 j) = (V m c main_call0_v4 : S1x3072.Idx → EReal) (ix2 0 j) := by
  obtain ⟨-, -, -, -, -, ⟨h0, h1⟩, -⟩ := idx_facts t
  unfold iblk
  rw [View.read_apply]
  show V m c main_call0_v4 _ = _
  refine congrArg _ (idx2_ext _ _ ?_ ?_)
  · show win0_5.index t (0 : Fin 2) * 1 + 1 * 0 = 0; rw [h0]
  · show win0_5.index t (1 : Fin 2) * 3072 + 1 * j.val = j.val; rw [h1]; omega

/-- The hidden state's bias' one block is the whole row. -/
theorem iblk6_apply (c : Dev nD) (t : Fin cfg0.N) (j : Fin 3072) :
    (iblk m c 6 t : Vec Ideal S1x3072 .f32) (ix2 0 j) = (V m c main_call0_v5 : S1x3072.Idx → EReal) (ix2 0 j) := by
  obtain ⟨-, -, -, -, -, -, ⟨h0, h1⟩, -⟩ := idx_facts t
  unfold iblk
  rw [View.read_apply]
  show V m c main_call0_v5 _ = _
  refine congrArg _ (idx2_ext _ _ ?_ ?_)
  · show win0_6.index t (0 : Fin 2) * 1 + 1 * 0 = 0; rw [h0]
  · show win0_6.index t (1 : Fin 2) * 3072 + 1 * j.val = j.val; rw [h1]; omega

/-! ## The result array -/

/-- The cell over the argument arrays as launched. -/
abbrev result (c : Dev nD) : S16384x1024.Idx → EReal :=
  gruArr (m ((c : Thread nD τ).loc main_arg0)) (m ((c : Thread nD τ).loc main_arg1)) (m ((c : Thread nD τ).loc main_arg2))
    (m ((c : Thread nD τ).loc main_arg3)) (m ((c : Thread nD τ).loc main_arg4)) (m ((c : Thread nD τ).loc main_arg5))
    (m ((c : Thread nD τ).loc main_arg6)) (m ((c : Thread nD τ).loc main_arg7)) (m ((c : Thread nD τ).loc main_arg8))

/-- The body's block at point `t`, entry (p, q), is `result` at (256 t + p, q). -/
theorem out_at (c : Dev nD) (t : Fin cfg0.N) (p : Fin 256) (q : Fin 1024) (r : Fin 16384) (hr : r.val = 256 * t.val + p.val) :
    out0_7 (iblk m c 0 t) (iblk m c 1 t) (iblk m c 2 t) (iblk m c 3 t) (iblk m c 4 t) (iblk m c 5 t) (iblk m c 6 t) (ix2 p q)
      = result m c (ix2 r q) := by
  refine (out_apply (iblk m c 0 t) (iblk m c 1 t) (iblk m c 2 t) (iblk m c 3 t) (iblk m c 4 t) (iblk m c 5 t) (iblk m c 6 t) p q).trans ?_
  have e0 : (fun k => (iblk m c 0 t : Vec Ideal S256x1024 .f32) (ix2 p k)) = rowOf (m ((c : Thread nD τ).loc main_arg0)) r :=
    funext fun k => iblk0_apply m c t p k r hr
  have e1 : (fun k => (iblk m c 1 t : Vec Ideal S256x1024 .f32) (ix2 p k)) = rowOf (m ((c : Thread nD τ).loc main_arg1)) r :=
    funext fun k => iblk1_apply m c t p k r hr
  have e2 : (fun k => (iblk m c 2 t : Vec Ideal S256x1024 .f32) (ix2 p k)) = rowOf (m ((c : Thread nD τ).loc main_arg2)) r :=
    funext fun k => iblk2_apply m c t p k r hr
  have e3 : (fun k j => (iblk m c 3 t : Vec Ideal S2048x3072 .bf16) (ix2 k j))
      = catW (wtOf (m ((c : Thread nD τ).loc main_arg3))) (wtOf (m ((c : Thread nD τ).loc main_arg5))) :=
    funext fun k => funext fun j => (iblk3_apply m c t k j).trans (wxs_apply m c k j)
  have e4 : (fun k j => (iblk m c 4 t : Vec Ideal S1024x3072 .bf16) (ix2 k j)) = wtOf (m ((c : Thread nD τ).loc main_arg4)) :=
    funext fun k => funext fun j => (iblk4_apply m c t k j).trans (wh_apply m c k j)
  have e5 : (fun j => (iblk m c 5 t : Vec Ideal S1x3072 .f32) (ix2 0 j))
      = fun j => biasOf (m ((c : Thread nD τ).loc main_arg6)) j + biasOf (m ((c : Thread nD τ).loc main_arg8)) j :=
    funext fun j => (iblk5_apply m c t j).trans (bxs_apply m c j)
  have e6 : (fun j => (iblk m c 6 t : Vec Ideal S1x3072 .f32) (ix2 0 j)) = biasOf (m ((c : Thread nD τ).loc main_arg7)) :=
    funext fun j => (iblk6_apply m c t j).trans (bh_apply m c j)
  rw [e0, e1, e2, e3, e4, e5, e6, kerRow_eq_refRow]
  rfl

/-- An index of the array is in point `t`'s block iff each coordinate is in the block's range on its axis. -/
theorem mem_blk (t : Fin cfg0.N) (i : S16384x1024.Idx) :
    i ∈ ((cfg0.win 7).blk t).view.set ↔ ∀ a : Fin 2, win0_7.index t a * S256x1024.size a ≤ (i a).val ∧ (i a).val < win0_7.index t a * S256x1024.size a + S256x1024.size a := by
  show i ∈ ((View.whole main_v0).slice (win0_7.rect t)).set ↔ _
  rw [View.set_slice_whole, Rect.mem_set_unit]
  exact Iff.rfl

/-- WHAT POINT `t` WRITES BACK is block `t` of `result`. -/
theorem flushed_eq (c : Dev nD) (t : Fin cfg0.N) :
    (dats m 0 c).flushed 7 t = ((cfg0.win 7).blk t).view.read (Elt Ideal) (result m c) := by
  rw [flushed7]
  obtain ⟨-, -, -, -, -, -, -, ⟨h0, h1⟩⟩ := idx_facts t
  have hN : t.val < 64 := by have h1 := t.isLt; have h2 : cfg0.N = 64 := N_0; omega
  funext y
  have hp : (y 0).val < 256 := (y 0).isLt
  have hq : (y 1).val < 1024 := (y 1).isLt
  show out0_7 (iblk m c 0 t) (iblk m c 1 t) (iblk m c 2 t) (iblk m c 3 t) (iblk m c 4 t) (iblk m c 5 t) (iblk m c 6 t) y
      = result m c (((cfg0.win 7).blk t).view.emb y)
  have hy : (y : S256x1024.Idx) = ix2 (⟨(y 0).val, hp⟩ : Fin 256) (⟨(y 1).val, hq⟩ : Fin 1024) := idx2_ext _ _ rfl rfl
  refine (congrArg (out0_7 (iblk m c 0 t) (iblk m c 1 t) (iblk m c 2 t) (iblk m c 3 t) (iblk m c 4 t) (iblk m c 5 t) (iblk m c 6 t)) hy).trans
    ((out_at m c t ⟨(y 0).val, hp⟩ ⟨(y 1).val, hq⟩ ⟨256 * t.val + (y 0).val, by omega⟩ rfl).trans ?_)
  refine congrArg (result m c) (idx2_ext _ _ ?_ ?_)
  · show 256 * t.val + (y 0).val = win0_7.index t (0 : Fin 2) * 256 + 1 * (y 0).val; rw [h0]; omega
  · show (y 1).val = win0_7.index t (1 : Fin 2) * 1024 + 1 * (y 1).val; rw [h1]; omega

/-- The 64 blocks tile the array: row `r` is in block `r / 256`. -/
theorem cover (i : S16384x1024.Idx) :
    ∃ t : Fin cfg0.N, (cfg0.win 7).flush t = true ∧ i ∈ ((cfg0.win 7).blk t).view.set := by
  have hi0 : (i 0).val < 16384 := (i 0).isLt
  have hi1 : (i 1).val < 1024 := (i 1).isLt
  let t : Fin cfg0.N := ⟨(i 0).val / 256, by rw [show cfg0.N = 64 from N_0]; omega⟩
  obtain ⟨-, -, -, -, -, -, -, ⟨h0, h1⟩⟩ := idx_facts t
  refine ⟨t, flush0_7 t, (mem_blk t i).mpr fun a => ?_⟩
  have ht : t.val = (i 0).val / 256 := rfl
  match a with
  | ⟨0, _⟩ =>
    show win0_7.index t (0 : Fin 2) * 256 ≤ (i 0).val ∧ (i 0).val < win0_7.index t (0 : Fin 2) * 256 + 256
    rw [h0, ht]; omega
  | ⟨1, _⟩ =>
    show win0_7.index t (1 : Fin 2) * 1024 ≤ (i 1).val ∧ (i 1).val < win0_7.index t (1 : Fin 2) * 1024 + 1024
    rw [h1]; omega

/-- THE ARRAY after the run is `result`. -/
theorem final (c : Dev nD) : (dats m 0 c).arrAt 7 cfg0.N = result m c :=
  (dats m 0 c).arrAt_eq_of_cover 7 (result m c) (fun t _ => flushed_eq m c t) cover

/-- The kernel's run, read: the result array at `result`, the arguments unchanged. -/
theorem run : θ_run defs (onTc (τ := τ) (main (F := Ideal))) ⟨m, fun _ => 0, ρ⟩ fun r => ∀ c : Dev nD,
      r.2.mem ((c : Thread nD τ).loc main_v0) = result m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5)
      ∧ r.2.mem ((c : Thread nD τ).loc main_arg6) = m ((c : Thread nD τ).loc main_arg6)
      ∧ r.2.mem ((c : Thread nD τ).loc main_arg7) = m ((c : Thread nD τ).loc main_arg7)
      ∧ r.2.mem ((c : Thread nD τ).loc main_arg8) = m ((c : Thread nD τ).loc main_arg8) :=
  (θ_run defs _ _).mono (fun r h c => ⟨(h c).1.trans (final m c), (h c).2⟩) (run_blocks m ρ)

end Cert.Gru.KerValue

end
-- ==== Proof.RefValue.lean ====
/-
  The reference's result is the cell over whole arrays (`gruArr`).

  Read one operation at a time: each source's product with its weights plus its broadcast bias, sliced into the three
  gates, is `pre` of row `r` at the gate's column; the gates' arguments add the three sources in order; the logistic
  function is spelt `1 / (1 + e^(-a))`; the literal `1.0` is the real `1`. What remains is `refRow` verbatim.
-/
import proofs.«410021_j20478404067888_3_alg».proof.Proof.Gen.ReferenceIdeal.Read
import proofs.«410021_j20478404067888_3_alg».proof.Proof.Arrays

noncomputable section

namespace Cert.Gru.Ref

open Cert.ReferenceIdeal Cert.ReferenceIdeal.Gen Cert.ReferenceIdeal.Read Cert.Gru Cert.LibLogisticTanh
open Idealize.ShloMosaic Idealize.ShloMosaic.TcCoe Idealize.SL.Sem

/-- The update-gate slice of the input's product-plus-bias, at (r, q): row `r` against column `colZ q`. -/
theorem pre_v12 (a : (⟨S16384x1024, .f32⟩ : BufTy).Contents (Elt Ideal)) (W : (⟨S1024x3072, .f32⟩ : BufTy).Contents (Elt Ideal))
    (b : (⟨S3072, .f32⟩ : BufTy).Contents (Elt Ideal)) (i : S16384x1024.Idx) :
    val_main_v12 (F := Ideal) a W b i = pre (rowOf a (i 0)) (wtOf W) (biasOf b) (colZ (i 1)) := by
  rw [val_main_v12_apply, val_main_v3_apply, val_main_v0_apply, val_main_v2_apply, val_main_v1_apply, Ideal.addf_def]
  unfold pre rowOf wtOf biasOf
  exact congrArg₂ (· + ·)
    (Finset.sum_congr rfl fun k _ => congrArg₂ (· * ·) (congrArg a (idx2_ext _ _ rfl rfl)) (congrArg W (idx2_ext _ _ rfl rfl)))
    (congrArg b (idx1_ext _ _ rfl))

/-- The reset-gate slice of the input's product-plus-bias, at (r, q): row `r` against column `colR q`. -/
theorem pre_v13 (a : (⟨S16384x1024, .f32⟩ : BufTy).Contents (Elt Ideal)) (W : (⟨S1024x3072, .f32⟩ : BufTy).Contents (Elt Ideal))
    (b : (⟨S3072, .f32⟩ : BufTy).Contents (Elt Ideal)) (i : S16384x1024.Idx) :
    val_main_v13 (F := Ideal) a W b i = pre (rowOf a (i 0)) (wtOf W) (biasOf b) (colR (i 1)) := by
  rw [val_main_v13_apply, val_main_v3_apply, val_main_v0_apply, val_main_v2_apply, val_main_v1_apply, Ideal.addf_def]
  unfold pre rowOf wtOf biasOf
  exact congrArg₂ (· + ·)
    (Finset.sum_congr rfl fun k _ => congrArg₂ (· * ·) (congrArg a (idx2_ext _ _ rfl rfl)) (congrArg W (idx2_ext _ _ rfl rfl)))
    (congrArg b (idx1_ext _ _ rfl))

/-- The candidate slice of the input's product-plus-bias, at (r, q): row `r` against column `colN q`. -/
theorem pre_v14 (a : (⟨S16384x1024, .f32⟩ : BufTy).Contents (Elt Ideal)) (W : (⟨S1024x3072, .f32⟩ : BufTy).Contents (Elt Ideal))
    (b : (⟨S3072, .f32⟩ : BufTy).Contents (Elt Ideal)) (i : S16384x1024.Idx) :
    val_main_v14 (F := Ideal) a W b i = pre (rowOf a (i 0)) (wtOf W) (biasOf b) (colN (i 1)) := by
  rw [val_main_v14_apply, val_main_v3_apply, val_main_v0_apply, val_main_v2_apply, val_main_v1_apply, Ideal.addf_def]
  unfold pre rowOf wtOf biasOf
  exact congrArg₂ (· + ·)
    (Finset.sum_congr rfl fun k _ => congrArg₂ (· * ·) (congrArg a (idx2_ext _ _ rfl rfl)) (congrArg W (idx2_ext _ _ rfl rfl)))
    (congrArg b (idx1_ext _ _ rfl))

/-- The update-gate slice of the hidden state's product-plus-bias, at (r, q): row `r` against column `colZ q`. -/
theorem pre_v15 (a : (⟨S16384x1024, .f32⟩ : BufTy).Contents (Elt Ideal)) (W : (⟨S1024x3072, .f32⟩ : BufTy).Contents (Elt Ideal))
    (b : (⟨S3072, .f32⟩ : BufTy).Contents (Elt Ideal)) (i : S16384x1024.Idx) :
    val_main_v15 (F := Ideal) a W b i = pre (rowOf a (i 0)) (wtOf W) (biasOf b) (colZ (i 1)) := by
  rw [val_main_v15_apply, val_main_v7_apply, val_main_v4_apply, val_main_v6_apply, val_main_v5_apply, Ideal.addf_def]
  unfold pre rowOf wtOf biasOf
  exact congrArg₂ (· + ·)
    (Finset.sum_congr rfl fun k _ => congrArg₂ (· * ·) (congrArg a (idx2_ext _ _ rfl rfl)) (congrArg W (idx2_ext _ _ rfl rfl)))
    (congrArg b (idx1_ext _ _ rfl))

/-- The reset-gate slice of the hidden state's product-plus-bias, at (r, q): row `r` against column `colR q`. -/
theorem pre_v16 (a : (⟨S16384x1024, .f32⟩ : BufTy).Contents (Elt Ideal)) (W : (⟨S1024x3072, .f32⟩ : BufTy).Contents (Elt Ideal))
    (b : (⟨S3072, .f32⟩ : BufTy).Contents (Elt Ideal)) (i : S16384x1024.Idx) :
    val_main_v16 (F := Ideal) a W b i = pre (rowOf a (i 0)) (wtOf W) (biasOf b) (colR (i 1)) := by
  rw [val_main_v16_apply, val_main_v7_apply, val_main_v4_apply, val_main_v6_apply, val_main_v5_apply, Ideal.addf_def]
  unfold pre rowOf wtOf biasOf
  exact congrArg₂ (· + ·)
    (Finset.sum_congr rfl fun k _ => congrArg₂ (· * ·) (congrArg a (idx2_ext _ _ rfl rfl)) (congrArg W (idx2_ext _ _ rfl rfl)))
    (congrArg b (idx1_ext _ _ rfl))

/-- The candidate slice of the hidden state's product-plus-bias, at (r, q): row `r` against column `colN q`. -/
theorem pre_v17 (a : (⟨S16384x1024, .f32⟩ : BufTy).Contents (Elt Ideal)) (W : (⟨S1024x3072, .f32⟩ : BufTy).Contents (Elt Ideal))
    (b : (⟨S3072, .f32⟩ : BufTy).Contents (Elt Ideal)) (i : S16384x1024.Idx) :
    val_main_v17 (F := Ideal) a W b i = pre (rowOf a (i 0)) (wtOf W) (biasOf b) (colN (i 1)) := by
  rw [val_main_v17_apply, val_main_v7_apply, val_main_v4_apply, val_main_v6_apply, val_main_v5_apply, Ideal.addf_def]
  unfold pre rowOf wtOf biasOf
  exact congrArg₂ (· + ·)
    (Finset.sum_congr rfl fun k _ => congrArg₂ (· * ·) (congrArg a (idx2_ext _ _ rfl rfl)) (congrArg W (idx2_ext _ _ rfl rfl)))
    (congrArg b (idx1_ext _ _ rfl))

/-- The update-gate slice of the shared state's product-plus-bias, at (r, q): row `r` against column `colZ q`. -/
theorem pre_v18 (a : (⟨S16384x1024, .f32⟩ : BufTy).Contents (Elt Ideal)) (W : (⟨S1024x3072, .f32⟩ : BufTy).Contents (Elt Ideal))
    (b : (⟨S3072, .f32⟩ : BufTy).Contents (Elt Ideal)) (i : S16384x1024.Idx) :
    val_main_v18 (F := Ideal) a W b i = pre (rowOf a (i 0)) (wtOf W) (biasOf b) (colZ (i 1)) := by
  rw [val_main_v18_apply, val_main_v11_apply, val_main_v8_apply, val_main_v10_apply, val_main_v9_apply, Ideal.addf_def]
  unfold pre rowOf wtOf biasOf
  exact congrArg₂ (· + ·)
    (Finset.sum_congr rfl fun k _ => congrArg₂ (· * ·) (congrArg a (idx2_ext _ _ rfl rfl)) (congrArg W (idx2_ext _ _ rfl rfl)))
    (congrArg b (idx1_ext _ _ rfl))

/-- The reset-gate slice of the shared state's product-plus-bias, at (r, q): row `r` against column `colR q`. -/
theorem pre_v19 (a : (⟨S16384x1024, .f32⟩ : BufTy).Contents (Elt Ideal)) (W : (⟨S1024x3072, .f32⟩ : BufTy).Contents (Elt Ideal))
    (b : (⟨S3072, .f32⟩ : BufTy).Contents (Elt Ideal)) (i : S16384x1024.Idx) :
    val_main_v19 (F := Ideal) a W b i = pre (rowOf a (i 0)) (wtOf W) (biasOf b) (colR (i 1)) := by
  rw [val_main_v19_apply, val_main_v11_apply, val_main_v8_apply, val_main_v10_apply, val_main_v9_apply, Ideal.addf_def]
  unfold pre rowOf wtOf biasOf
  exact congrArg₂ (· + ·)
    (Finset.sum_congr rfl fun k _ => congrArg₂ (· * ·) (congrArg a (idx2_ext _ _ rfl rfl)) (congrArg W (idx2_ext _ _ rfl rfl)))
    (congrArg b (idx1_ext _ _ rfl))

/-- The candidate slice of the shared state's product-plus-bias, at (r, q): row `r` against column `colN q`. -/
theorem pre_v20 (a : (⟨S16384x1024, .f32⟩ : BufTy).Contents (Elt Ideal)) (W : (⟨S1024x3072, .f32⟩ : BufTy).Contents (Elt Ideal))
    (b : (⟨S3072, .f32⟩ : BufTy).Contents (Elt Ideal)) (i : S16384x1024.Idx) :
    val_main_v20 (F := Ideal) a W b i = pre (rowOf a (i 0)) (wtOf W) (biasOf b) (colN (i 1)) := by
  rw [val_main_v20_apply, val_main_v11_apply, val_main_v8_apply, val_main_v10_apply, val_main_v9_apply, Ideal.addf_def]
  unfold pre rowOf wtOf biasOf
  exact congrArg₂ (· + ·)
    (Finset.sum_congr rfl fun k _ => congrArg₂ (· * ·) (congrArg a (idx2_ext _ _ rfl rfl)) (congrArg W (idx2_ext _ _ rfl rfl)))
    (congrArg b (idx1_ext _ _ rfl))

/-- The reference's last stage is `gruArr` of its nine arguments. -/
theorem stage_eq_gruArr (x0 x1 x2 : (⟨S16384x1024, .f32⟩ : BufTy).Contents (Elt Ideal)) (x3 x4 x5 : (⟨S1024x3072, .f32⟩ : BufTy).Contents (Elt Ideal))
    (x6 x7 x8 : (⟨S3072, .f32⟩ : BufTy).Contents (Elt Ideal)) :
    val_main_v45 (F := Ideal) x0 x1 x2 x3 x4 x5 x6 x7 x8 = gruArr x0 x1 x2 x3 x4 x5 x6 x7 x8 := by
  funext i
  simp only [val_main_v45_apply, val_main_v44_apply, val_main_v43_apply, val_main_v42_apply, val_main_v41_apply, val_main_cst_3_apply, val_main_v40_apply, val_main_v39_apply, val_main_v38_apply, val_main_v37_apply, val_main_v36_apply, val_main_v35_apply, val_main_cst_2_apply, val_main_v34_apply, val_main_v33_apply, val_main_cst_1_apply, val_main_v32_apply, val_main_v31_apply, val_main_v30_apply, val_main_v29_apply, val_main_v28_apply, val_main_v27_apply, val_main_cst_0_apply, val_main_v26_apply, val_main_v25_apply, val_main_cst_apply, val_main_v24_apply, val_main_v23_apply, val_main_v22_apply, val_main_v21_apply,
    pre_v12, pre_v13, pre_v14, pre_v15, pre_v16, pre_v17, pre_v18, pre_v19, pre_v20,
    Ideal.addf_def, Ideal.subf_def, Ideal.mulf_def, Ideal.hostDivf_def, Ideal.hostUnary_exp_def, Ideal.hostUnary_tanh_def,
    Ideal.hostNegf_def, Ideal.negf_def, Ideal.ofBits_def, ofBits_one]
  have e : x1 i = rowOf x1 (i 0) (i 1) := congrArg x1 (ValueIdx.eq_ix2 i)
  rw [e]
  rfl

/-- The reference run's result term is `gruArr` of the argument arrays as launched. -/
theorem result_eq (m : (ℓ : Loc nD τ sig) → Buf (Elt Ideal) ℓ) (c : Dev nD) :
    Cert.ReferenceIdeal.Value.res_main_v45 m c
      = gruArr (m ((c.tc : Thread nD τ).loc main_arg0)) (m ((c.tc : Thread nD τ).loc main_arg1)) (m ((c.tc : Thread nD τ).loc main_arg2))
          (m ((c.tc : Thread nD τ).loc main_arg3)) (m ((c.tc : Thread nD τ).loc main_arg4)) (m ((c.tc : Thread nD τ).loc main_arg5))
          (m ((c.tc : Thread nD τ).loc main_arg6)) (m ((c.tc : Thread nD τ).loc main_arg7)) (m ((c.tc : Thread nD τ).loc main_arg8)) :=
  (val_main_v45_eq m c).trans (stage_eq_gruArr _ _ _ _ _ _ _ _ _)

end Cert.Gru.Ref

end
-- ==== Proof.lean ====
/-
  A GRU cell with a third, shared-state source: `h' = (1 - z) · n + z · h` with
  `z = σ(a_z)`, `r = σ(a_r)`, `n = tanh (x·Wx + bx + r · (h·Wh + bh) + s·Ws + bs)` on the candidate's columns,
  where `a_z`, `a_r` add the three sources' products-plus-biases on the gates' columns.

  The kernel walks the batch in 64 blocks of 256 rows; per block it multiplies `[x | s]` by the stacked `[Wx ; Ws]`
  (one product for two sources, their biases added beforehand on the host), keeps `h · Wh + bh` apart because the
  reset gate multiplies only it, and spells the logistic function `½ (1 + tanh (½ a))`. The reference makes three
  products and spells it `1 / (1 + e^(-a))`. On the extended reals both are one array (`Cert.Gru.gruArr`):
  a sum over 2048 positions splits into its halves, addition commutes and associates, the two logistic spellings agree
  at every extended real, and a change of float format is the identity. No finiteness of the inputs is used.

  The frames of the two kernel programs are the generated ones; the reference's is its generated run with the
  result dropped; the idealization rewrote nothing, so `preserves` is `True`.
-/
import proofs.«410021_j20478404067888_3_alg».proof.Defs
import proofs.«410021_j20478404067888_3_alg».proof.Proof.Gen.Kernel
import proofs.«410021_j20478404067888_3_alg».proof.Proof.Gen.Kernel.Skeleton
import proofs.«410021_j20478404067888_3_alg».proof.Proof.Gen.Kernel.Launch
import proofs.«410021_j20478404067888_3_alg».proof.Proof.Gen.Kernel.Points
import proofs.«410021_j20478404067888_3_alg».proof.Proof.Gen.Kernel.Frame
import proofs.«410021_j20478404067888_3_alg».proof.Proof.Gen.KernelIdeal
import proofs.«410021_j20478404067888_3_alg».proof.Proof.Gen.KernelIdeal.Skeleton
import proofs.«410021_j20478404067888_3_alg».proof.Proof.Gen.KernelIdeal.Launch
import proofs.«410021_j20478404067888_3_alg».proof.Proof.Gen.KernelIdeal.Points
import proofs.«410021_j20478404067888_3_alg».proof.Proof.Gen.KernelIdeal.Frame
import proofs.«410021_j20478404067888_3_alg».proof.Proof.Gen.ReferenceIdeal
import proofs.«410021_j20478404067888_3_alg».proof.Proof.Gen.Pre_finite_inputs
import proofs.«410021_j20478404067888_3_alg».proof.Proof.Gen.KernelIdeal.Value
import proofs.«410021_j20478404067888_3_alg».proof.Proof.Gen.ReferenceIdeal.Run
import proofs.«410021_j20478404067888_3_alg».proof.Proof.Gen.ReferenceIdeal.Read
import proofs.«410021_j20478404067888_3_alg».proof.Proof.KernelValue
import proofs.«410021_j20478404067888_3_alg».proof.Proof.RefValue
import Idealize.ShloMosaic.Adequacy
import Idealize.ShloMosaic.Init

noncomputable section

namespace Cert.Proof

open Idealize.ShloMosaic Idealize.SL.Sem Cert.Kernel

/-- From memories agreeing on the nine arguments, both idealized programs end with the result array at
    `Cert.Gru.gruArr` of the arguments. -/
theorem algebraic : Cert.algebraic_KernelIdeal_ReferenceIdeal := by
  intro m ρ m' ρ' _ hagree
  refine ⟨fun c => Cert.Gru.KerValue.result m c, Cert.Gru.KerValue.run m ρ, ?_⟩
  refine (θ_run Cert.ReferenceIdeal.defs _ _).mono (fun _ h c => ⟨(h c).1.trans ?_, (h c).2⟩)
    (Cert.ReferenceIdeal.Value.run (F := Ideal) m' ρ')
  obtain ⟨a0, a1, a2, a3, a4, a5, a6, a7, a8⟩ := hagree c
  rw [Cert.Gru.Ref.result_eq, a0, a1, a2, a3, a4, a5, a6, a7, a8]

theorem claim : Cert.Claim := ⟨Cert.Kernel.Gen.facts, Cert.KernelIdeal.Gen.facts, Cert.ReferenceIdeal.Gen.facts, Cert.Pre_finite_inputs.Gen.facts,
  fun m ρ _ => Cert.Kernel.Gen.frame m ρ,
  fun m ρ _ => Cert.KernelIdeal.Gen.frame m ρ,
  fun m ρ _ => (θ_run Cert.ReferenceIdeal.defs _ _).mono (fun _ h c => (h c).2) (Cert.ReferenceIdeal.Value.run (F := Ideal) m ρ),
  trivial,
  algebraic⟩

end Cert.Proof

end
